-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S5794x2897 : Shape := ⟨2, ![5794, 2897]⟩
abbrev S2897x5794 : Shape := ⟨2, ![2897, 5794]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5794x2897 : S_.BroadcastsInDim S5794x2897 (![] : Fin 0 → Fin S5794x2897.rank)
  reducesTo_S5794x2897_S_d0_1 : S5794x2897.ReducesTo [0, 1] S_
  bcast_S_S2897x5794 : S_.BroadcastsInDim S2897x5794 (![] : Fin 0 → Fin S2897x5794.rank)
  reducesTo_S2897x5794_S_d0_1 : S2897x5794.ReducesTo [0, 1] S_

variable [Facts]

def fn {F : FTy → Type} [FloatOps F] (main_arg0 : FVec F S4096x2048 .f32) (main_arg1 : FVec F S5794x2897 .f32) (main_arg2 : FVec F S2897x5794 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5794x2897 .f32 := Host.absf main_arg1
  let main_cst_0 : FVec F S_ .f32 := constant S_ .f32 0x7F800000#32
  let main_v5 : FVec F S5794x2897 .f32 := broadcastInDim S5794x2897 ![] bcast_S_S5794x2897 main_cst_0
  let main_v6 : IVec S5794x2897 1 := cmpf .olt main_v4 main_v5
  let main_c_1 : IVec S_ 1 := constantI S_ 1 1#1
  let main_v7 : IVec S_ 1 := (fun x v => Host.reduce IntOp.andi x v reducesTo_S5794x2897_S_d0_1 h_S_) main_v6 main_c_1
  let main_v8 : IVec S_ 1 := andi main_v3 main_v7
  let main_v9 : FVec F S2897x5794 .f32 := Host.absf main_arg2
  let main_cst_2 : FVec F S_ .f32 := constant S_ .f32 0x7F800000#32
  let main_v10 : FVec F S2897x5794 .f32 := broadcastInDim S2897x5794 ![] bcast_S_S2897x5794 main_cst_2
  let main_v11 : IVec S2897x5794 1 := cmpf .olt main_v9 main_v10
  let main_c_3 : IVec S_ 1 := constantI S_ 1 1#1
  let main_v12 : IVec S_ 1 := (fun x v => Host.reduce IntOp.andi x v reducesTo_S2897x5794_S_d0_1 h_S_) main_v11 main_c_3
  let main_v13 : IVec S_ 1 := andi main_v8 main_v12
  main_v13
-- ==== Kernel.lean ====
abbrev S4096x2048 : Shape := ⟨2, ![4096, 2048]⟩
abbrev S5794x2897 : Shape := ⟨2, ![5794, 2897]⟩
abbrev S2897x5794 : Shape := ⟨2, ![2897, 5794]⟩
abbrev S_ : Shape := ⟨0, ![]⟩
abbrev S6144x2944 : Shape := ⟨2, ![6144, 2944]⟩
abbrev S2944x6144 : Shape := ⟨2, ![2944, 6144]⟩
abbrev S6144x6144 : Shape := ⟨2, ![6144, 6144]⟩
abbrev S512x2944 : Shape := ⟨2, ![512, 2944]⟩
abbrev S2944x512 : Shape := ⟨2, ![2944, 512]⟩
abbrev S512x512 : Shape := ⟨2, ![512, 512]⟩
abbrev S5794x5794 : Shape := ⟨2, ![5794, 5794]⟩
abbrev S33570436 : Shape := ⟨1, ![33570436]⟩
abbrev S33564672 : Shape := ⟨1, ![33564672]⟩
abbrev S8388608 : Shape := ⟨1, ![8388608]⟩
abbrev S4096 : Shape := ⟨1, ![4096]⟩
abbrev S16777216 : Shape := ⟨1, ![16777216]⟩
abbrev S4096x4096 : Shape := ⟨2, ![4096, 4096]⟩
abbrev S2048x4096 : Shape := ⟨2, ![2048, 4096]⟩
abbrev S2048 : Shape := ⟨1, ![2048]⟩
abbrev S1x4096 : Shape := ⟨2, ![1, 4096]⟩
abbrev S512x2048 : Shape := ⟨2, ![512, 2048]⟩
abbrev S1x512 : Shape := ⟨2, ![1, 512]⟩
abbrev S512x4096 : Shape := ⟨2, ![512, 4096]⟩
abbrev S1x2048 : Shape := ⟨2, ![1, 2048]⟩

abbrev nBuf : Space → Nat
  | .hbm => 28
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S5794x2897, .f32⟩
  | .hbm, ⟨2, _⟩ => ⟨S2897x5794, .f32⟩
  | .hbm, ⟨3, _⟩ => ⟨S_, .i32⟩
  | .hbm, ⟨4, _⟩ => ⟨S_, .f32⟩
  | .hbm, ⟨5, _⟩ => ⟨S6144x2944, .f32⟩
  | .hbm, ⟨6, _⟩ => ⟨S_, .i32⟩
  | .hbm, ⟨7, _⟩ => ⟨S_, .f32⟩
  | .hbm, ⟨8, _⟩ => ⟨S2944x6144, .f32⟩
  | .hbm, ⟨9, _⟩ => ⟨S6144x6144, .f32⟩
  | .hbm, ⟨10, _⟩ => ⟨S5794x5794, .f32⟩
  | .hbm, ⟨11, _⟩ => ⟨S33570436, .f32⟩
  | .hbm, ⟨12, _⟩ => ⟨S33564672, .f32⟩
  | .hbm, ⟨13, _⟩ => ⟨S8388608, .f32⟩
  | .hbm, ⟨14, _⟩ => ⟨S4096x2048, .f32⟩
  | .hbm, ⟨15, _⟩ => ⟨S4096, .f32⟩
  | .hbm, ⟨16, _⟩ => ⟨S16777216, .f32⟩
  | .hbm, ⟨17, _⟩ => ⟨S4096x4096, .f32⟩
  | .hbm, ⟨18, _⟩ => ⟨S4096, .f32⟩
  | .hbm, ⟨19, _⟩ => ⟨S8388608, .f32⟩
  | .hbm, ⟨20, _⟩ => ⟨S2048x4096, .f32⟩
  | .hbm, ⟨21, _⟩ => ⟨S2048, .f32⟩
  | .hbm, ⟨22, _⟩ => ⟨S1x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S1x2048, .f32⟩
  | .hbm, ⟨27, _⟩ => ⟨S4096x2048, .f32⟩
  | .local _ .vmem, ⟨0, _⟩ => ⟨S512x2944, .f32⟩
  | .local _ .vmem, ⟨1, _⟩ => ⟨S512x2944, .f32⟩
  | .local _ .vmem, ⟨2, _⟩ => ⟨S2944x512, .f32⟩
  | .local _ .vmem, ⟨3, _⟩ => ⟨S2944x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x4096, .f32⟩
  | .local _ .vmem, ⟨15, _⟩ => ⟨S512x4096, .f32⟩
  | .local _ .vmem, ⟨16, _⟩ => ⟨S512x4096, .f32⟩
  | .local _ .vmem, ⟨17, _⟩ => ⟨S512x4096, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | .local _ .vmem, ⟨22, _⟩ => ⟨S512x4096, .f32⟩
  | .local _ .vmem, ⟨23, _⟩ => ⟨S512x4096, .f32⟩
  | .local _ .vmem, ⟨24, _⟩ => ⟨S512x4096, .f32⟩
  | .local _ .vmem, ⟨25, _⟩ => ⟨S512x4096, .f32⟩
  | .local _ .vmem, ⟨26, _⟩ => ⟨S1x512, .f32⟩
  | .local _ .vmem, ⟨27, _⟩ => ⟨S1x512, .f32⟩
  | .local _ .vmem, ⟨28, _⟩ => ⟨S512x512, .f32⟩
  | .local _ .vmem, ⟨29, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![12, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2944x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  pads_S5794x2897_S6144x2944_03500_0470 : S5794x2897.Pads (![0, 0] : Fin 2 → Nat) ![350, 47] ![0, 0] S6144x2944
  h_S_ : 0 < S_.numel
  pads_S2897x5794_S2944x6144_0470_03500 : S2897x5794.Pads (![0, 0] : Fin 2 → Nat) ![47, 350] ![0, 0] S2944x6144
  inb_S512x2944_S512x2944_0_0 : ∀ a, (![0, 0] : Fin 2 → Nat) a + S512x2944.size a ≤ S512x2944.size a
  h_S512x2944 : 0 < S512x2944.numel
  shapeCasts_S512x2944_S512x2944 : S512x2944.ShapeCasts S512x2944
  bitsLt_bf16_f32 : FTy.bits .bf16 < FTy.bits .f32
  inb_S2944x512_S2944x512_0_0 : ∀ a, (![0, 0] : Fin 2 → Nat) a + S2944x512.size a ≤ S2944x512.size a
  h_S2944x512 : 0 < S2944x512.numel
  shapeCasts_S2944x512_S2944x512 : S2944x512.ShapeCasts S2944x512
  inb_S512x512_S512x512_0_0 : ∀ a, (![0, 0] : Fin 2 → Nat) a + S512x512.size a ≤ S512x512.size a
  h_S512x512 : 0 < S512x512.numel
  slices_S6144x6144_S5794x5794_0_0 : S6144x6144.Slices ![0, 0] S5794x5794
  shapeCasts_S5794x5794_S33570436 : S5794x5794.ShapeCasts S33570436
  slices_S33570436_S33564672_0 : S33570436.Slices ![0] S33564672
  slices_S33564672_S8388608_0 : S33564672.Slices ![0] S8388608
  shapeCasts_S8388608_S4096x2048 : S8388608.ShapeCasts S4096x2048
  slices_S33564672_S4096_8388608 : S33564672.Slices ![8388608] S4096
  slices_S33564672_S16777216_8392704 : S33564672.Slices ![8392704] S16777216
  shapeCasts_S16777216_S4096x4096 : S16777216.ShapeCasts S4096x4096
  slices_S33564672_S4096_25169920 : S33564672.Slices ![25169920] S4096
  slices_S33564672_S8388608_25174016 : S33564672.Slices ![25174016] S8388608
  shapeCasts_S8388608_S2048x4096 : S8388608.ShapeCasts S2048x4096
  slices_S33564672_S2048_33562624 : S33564672.Slices ![33562624] S2048
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S2048_S1x2048 : S2048.ShapeCasts S1x2048
  dot_S512x2944_S2944x512_S512x512_1_0_0_1_n_n_wf : DotDims.WF S512x2944 S2944x512 S512x512 [1] [0] [0] [1] [] []
  dot_S512x2048_S512x2048_S512x512_1_1_0_0_n_n_wf : DotDims.WF S512x2048 S512x2048 S512x512 [1] [1] [0] [0] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2944.size a ≤ S6144x2944.size a
  hwx0_0 : ∀ i : grid0.Coords, EltTy.bits .f32 = 32 ∨ (Rect.block (s := S6144x2944) S512x2944.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2944x512.size a ≤ S2944x6144.size a
  hwx0_1 : ∀ i : grid0.Coords, EltTy.bits .f32 = 32 ∨ (Rect.block (s := S2944x6144) S2944x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S6144x6144.size a
  hwx0_2 : ∀ i : grid0.Coords, EltTy.bits .f32 = 32 ∨ (Rect.block (s := S6144x6144) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .f32 = 32 ∨ (Rect.block (s := S4096x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .f32 = 32 ∨ (Rect.block (s := S4096x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x4096.size a
  hwx2_3 : ∀ i : grid2.Coords, EltTy.bits .f32 = 32 ∨ (Rect.block (s := S4096x4096) S512x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .f32 = 32 ∨ (Rect.block (s := S4096x4096) S512x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x4096.size a ≤ S2048x4096.size a
  hwx3_1 : ∀ i : grid3.Coords, EltTy.bits .f32 = 32 ∨ (Rect.block (s := S2048x4096) S512x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x2048.size a
  hwx3_2 : ∀ i : grid3.Coords, EltTy.bits .f32 = 32 ∨ (Rect.block (s := S1x2048) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S4096x2048.size a
  hwx3_3 : ∀ i : grid3.Coords, EltTy.bits .f32 = 32 ∨ (Rect.block (s := S4096x2048) S512x512.size (cc3_transform_3 i) (hinb3_3 i)).WholeWords (EltTy.packing .f32)

variable [Facts₀]

def dot_S512x2944_S2944x512_S512x512_1_0_0_1_n_n : DotDims S512x2944 S2944x512 S512x512 where
  lhsContracting := [1]
  rhsContracting := [0]
  lhsNonContracting := [0]
  rhsNonContracting := [1]
  lhsBatch := []
  rhsBatch := []
  wf := dot_S512x2944_S2944x512_S512x512_1_0_0_1_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x2944.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2944x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v18) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S512x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v20) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x2048 : Shape := ⟨2, ![4096, 2048]⟩
abbrev S5794x2897 : Shape := ⟨2, ![5794, 2897]⟩
abbrev S2897x5794 : Shape := ⟨2, ![2897, 5794]⟩
abbrev S5794x5794 : Shape := ⟨2, ![5794, 5794]⟩
abbrev S33570436 : Shape := ⟨1, ![33570436]⟩
abbrev S8388608 : Shape := ⟨1, ![8388608]⟩
abbrev S4096 : Shape := ⟨1, ![4096]⟩
abbrev S16777216 : Shape := ⟨1, ![16777216]⟩
abbrev S4096x4096 : Shape := ⟨2, ![4096, 4096]⟩
abbrev S2048x4096 : Shape := ⟨2, ![2048, 4096]⟩
abbrev S2048 : Shape := ⟨1, ![2048]⟩
abbrev S1x4096 : Shape := ⟨2, ![1, 4096]⟩
abbrev S_ : Shape := ⟨0, ![]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5794x2897, .f32⟩
  | .hbm, ⟨2, _⟩ => ⟨S2897x5794, .f32⟩
  | .hbm, ⟨3, _⟩ => ⟨S5794x5794, .f32⟩
  | .hbm, ⟨4, _⟩ => ⟨S33570436, .f32⟩
  | .hbm, ⟨5, _⟩ => ⟨S8388608, .f32⟩
  | .hbm, ⟨6, _⟩ => ⟨S4096x2048, .f32⟩
  | .hbm, ⟨7, _⟩ => ⟨S4096, .f32⟩
  | .hbm, ⟨8, _⟩ => ⟨S16777216, .f32⟩
  | .hbm, ⟨9, _⟩ => ⟨S4096x4096, .f32⟩
  | .hbm, ⟨10, _⟩ => ⟨S4096, .f32⟩
  | .hbm, ⟨11, _⟩ => ⟨S8388608, .f32⟩
  | .hbm, ⟨12, _⟩ => ⟨S2048x4096, .f32⟩
  | .hbm, ⟨13, _⟩ => ⟨S2048, .f32⟩
  | .hbm, ⟨14, _⟩ => ⟨S2048x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call1_cst : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  shapeCasts_S5794x5794_S33570436 : S5794x5794.ShapeCasts S33570436
  slices_S33570436_S8388608_0 : S33570436.Slices ![0] S8388608
  shapeCasts_S8388608_S4096x2048 : S8388608.ShapeCasts S4096x2048
  slices_S33570436_S4096_8388608 : S33570436.Slices ![8388608] S4096
  slices_S33570436_S16777216_8392704 : S33570436.Slices ![8392704] S16777216
  shapeCasts_S16777216_S4096x4096 : S16777216.ShapeCasts S4096x4096
  slices_S33570436_S4096_25169920 : S33570436.Slices ![25169920] S4096
  slices_S33570436_S8388608_25174016 : S33570436.Slices ![25174016] S8388608
  shapeCasts_S8388608_S2048x4096 : S8388608.ShapeCasts S2048x4096
  slices_S33570436_S2048_33562624 : S33570436.Slices ![33562624] S2048
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  transposes_S2048x4096_S4096x2048_1_0 : S2048x4096.Transposes [1, 0] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S5794x2897_S2897x5794_S5794x5794_1_0_0_1_n_n_wf : DotDims.WF S5794x2897 S2897x5794 S5794x5794 [1] [0] [0] [1] [] []
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S5794x2897_S2897x5794_S5794x5794_1_0_0_1_n_n : DotDims S5794x2897 S2897x5794 S5794x5794 where
  lhsContracting := [1]
  rhsContracting := [0]
  lhsNonContracting := [0]
  rhsNonContracting := [1]
  lhsBatch := []
  rhsBatch := []
  wf := dot_S5794x2897_S2897x5794_S5794x5794_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Spec.lean ====
/-
  The function both programs compute, over the extended reals.

  A low-rank pair V1 [5794, 2897], V2 [2897, 5794] is multiplied out to a square matrix P = V1 · V2; P read in
  row-major order is one long vector, and consecutive stretches of that vector are the weights and biases of a
  three-layer perceptron:   W1 [4096, 2048] at offset 0, b1 [4096] at 8388608, W2 [4096, 4096] at 8392704,
  b2 [4096] at 25169920, W3 [2048, 4096] at 25174016, b3 [2048] at 33562624.   The result is
      out = dense (relu (dense (relu (dense x W1 b1)) W2 b2)) W3 b3,      dense X W b = X · Wᵀ + b.
  Everything here is a finite sum, a product, a maximum with zero, or a re-indexing: no law that fails at an
  infinity is used anywhere, so the finiteness of the inputs is never needed.
-/
import Idealize.ShloMosaic.Lib.ValueIdx
import Idealize.ShloMosaic.PureOps.Ideal.Laws

noncomputable section

namespace Cert.LowRankMlp

open Idealize.ShloMosaic Idealize.ShloMosaic.ValueIdx

/-- A matrix of extended reals with `a` rows and `b` columns. -/
abbrev Mat (a b : ℕ) := FVec Ideal ⟨2, ![a, b]⟩ .f32

/-- The matrix product: entry (p, q) is the sum over k of A (p, k) · B (k, q). -/
def prod {M K N : ℕ} (A : Mat M K) (B : Mat K N) : Mat M N :=
  fun i => ∑ k : Fin K, A (ix2 (i 0) k) * B (ix2 k (i 1))

theorem prod_apply {M K N : ℕ} (A : Mat M K) (B : Mat K N) (p : Fin M) (q : Fin N) :
    prod A B (ix2 p q) = ∑ k : Fin K, A (ix2 p k) * B (ix2 k q) := rfl

/-- A dense layer: entry (p, q) is the inner product of row p of X with row q of W, plus the bias of column q
    (the bias kept as a one-row matrix). -/
def dense {B K N : ℕ} (X : Mat B K) (W : Mat N K) (b : Mat 1 N) : Mat B N :=
  fun i => (∑ d : Fin K, X (ix2 (i 0) d) * W (ix2 (i 1) d)) + b (ix2 0 (i 1))

theorem dense_apply {B K N : ℕ} (X : Mat B K) (W : Mat N K) (b : Mat 1 N) (p : Fin B) (q : Fin N) :
    dense X W b (ix2 p q) = (∑ d : Fin K, X (ix2 p d) * W (ix2 q d)) + b (ix2 0 q) := rfl

/-- A dense layer followed by the maximum with zero. -/
def denseRelu {B K N : ℕ} (X : Mat B K) (W : Mat N K) (b : Mat 1 N) : Mat B N :=
  fun i => max (dense X W b i) 0

theorem denseRelu_apply {B K N : ℕ} (X : Mat B K) (W : Mat N K) (b : Mat 1 N) (p : Fin B) (q : Fin N) :
    denseRelu X W b (ix2 p q) = max ((∑ d : Fin K, X (ix2 p d) * W (ix2 q d)) + b (ix2 0 q)) 0 := rfl

/-- Entry n of the square matrix read in row-major order: row n / 5794, column n % 5794. -/
def flatAt (P : Mat 5794 5794) (n : ℕ) (h : n < 33570436) : EReal :=
  P (ix2 ⟨n / 5794, by omega⟩ ⟨n % 5794, by omega⟩)

/-- Position (i, j) of an r × c matrix stored row by row from offset `off` lies inside the long vector. -/
theorem offset_lt {off r c i j : ℕ} (h : off + r * c ≤ 33570436) (hi : i < r) (hj : j < c) :
    off + i * c + j < 33570436 := by
  have h1 : i * c + j < r * c := by
    calc i * c + j < i * c + c := by omega
      _ = (i + 1) * c := (Nat.succ_mul i c).symm
      _ ≤ r * c := Nat.mul_le_mul_right c hi
  omega

/-- The r × c weight matrix stored row by row from offset `off` of the long vector. -/
def weightAt (P : Mat 5794 5794) (off r c : ℕ) (h : off + r * c ≤ 33570436) : Mat r c :=
  fun i => flatAt P (off + (i 0).val * c + (i 1).val) (offset_lt h (idx2_lt0 i) (idx2_lt1 i))

/-- The n biases stored from offset `off` of the long vector, as a one-row matrix. -/
def biasAt (P : Mat 5794 5794) (off n : ℕ) (h : off + n ≤ 33570436) : Mat 1 n :=
  fun i => flatAt P (off + (i 1).val) (by have := idx2_lt1 i; omega)

/-- The perceptron whose parameters are read out of P. -/
def mlp (x : Mat 4096 2048) (P : Mat 5794 5794) : Mat 4096 2048 :=
  dense
    (denseRelu
      (denseRelu x (weightAt P 0 4096 2048 (by norm_num)) (biasAt P 8388608 4096 (by norm_num)))
      (weightAt P 8392704 4096 4096 (by norm_num)) (biasAt P 25169920 4096 (by norm_num)))
    (weightAt P 25174016 2048 4096 (by norm_num)) (biasAt P 33562624 2048 (by norm_num))

/-- The whole function: the perceptron at the parameters read out of V1 · V2. -/
def out (x : Mat 4096 2048) (V1 : Mat 5794 2897) (V2 : Mat 2897 5794) : Mat 4096 2048 :=
  mlp x (prod V1 V2)

end Cert.LowRankMlp

end
-- ==== Proof.KernelTerm.lean ====
/-
  The kernel program's result as one term of its three arguments: the host operations of its @main as they are
  printed (the zero paddings, the slices, the reshapes), with each of the four kernel regions standing as the
  whole-array function it computes (a matrix product; a dense layer with or without the maximum with zero).
    p1, p2   V1 and V2 padded with zeros to [6144, 2944] and [2944, 6144]
    big      their product [6144, 6144];  sq its corner [5794, 5794];  long that corner read row by row, cut to
             the 33564672 entries the parameters occupy
    w1 … b3  the parameters: stretches of `long`, reshaped (a bias to one row)
    h1, h2, y  the three layers
-/
import proofs.«126509_j24953759990119_1_alg».proof.Proof.Gen.KernelIdeal
import proofs.«126509_j24953759990119_1_alg».proof.Proof.Spec

noncomputable section

namespace Cert.KernelIdeal.Term

open Idealize.ShloMosaic Cert.KernelIdeal Cert.KernelIdeal.Facts₀ Cert.LowRankMlp

/-- The padding value: the integer zero converted to a float. -/
def zero : FVec Ideal S_ .f32 := sitofp .f32 (constantI S_ 32 0#32)

def p1 (V1 : FVec Ideal S5794x2897 .f32) : FVec Ideal S6144x2944 .f32 :=
  pad S6144x2944 ![0, 0] ![350, 47] ![0, 0] V1 zero pads_S5794x2897_S6144x2944_03500_0470 h_S_
def p2 (V2 : FVec Ideal S2897x5794 .f32) : FVec Ideal S2944x6144 .f32 :=
  pad S2944x6144 ![0, 0] ![47, 350] ![0, 0] V2 zero pads_S2897x5794_S2944x6144_0470_03500 h_S_
def big (V1 : FVec Ideal S5794x2897 .f32) (V2 : FVec Ideal S2897x5794 .f32) : FVec Ideal S6144x6144 .f32 :=
  prod (p1 V1) (p2 V2)
def sq (V1 : FVec Ideal S5794x2897 .f32) (V2 : FVec Ideal S2897x5794 .f32) : FVec Ideal S5794x5794 .f32 :=
  extractStridedSlice S5794x5794 ![0, 0] (big V1 V2) slices_S6144x6144_S5794x5794_0_0
def long (V1 : FVec Ideal S5794x2897 .f32) (V2 : FVec Ideal S2897x5794 .f32) : FVec Ideal S33564672 .f32 :=
  extractStridedSlice S33564672 ![0] (shapeCast S33570436 (sq V1 V2) shapeCasts_S5794x5794_S33570436) slices_S33570436_S33564672_0
def w1 (V1 : FVec Ideal S5794x2897 .f32) (V2 : FVec Ideal S2897x5794 .f32) : FVec Ideal S4096x2048 .f32 :=
  shapeCast S4096x2048 (extractStridedSlice S8388608 ![0] (long V1 V2) slices_S33564672_S8388608_0) shapeCasts_S8388608_S4096x2048
def b1 (V1 : FVec Ideal S5794x2897 .f32) (V2 : FVec Ideal S2897x5794 .f32) : FVec Ideal S1x4096 .f32 :=
  shapeCast S1x4096 (extractStridedSlice S4096 ![8388608] (long V1 V2) slices_S33564672_S4096_8388608) shapeCasts_S4096_S1x4096
def w2 (V1 : FVec Ideal S5794x2897 .f32) (V2 : FVec Ideal S2897x5794 .f32) : FVec Ideal S4096x4096 .f32 :=
  shapeCast S4096x4096 (extractStridedSlice S16777216 ![8392704] (long V1 V2) slices_S33564672_S16777216_8392704) shapeCasts_S16777216_S4096x4096
def b2 (V1 : FVec Ideal S5794x2897 .f32) (V2 : FVec Ideal S2897x5794 .f32) : FVec Ideal S1x4096 .f32 :=
  shapeCast S1x4096 (extractStridedSlice S4096 ![25169920] (long V1 V2) slices_S33564672_S4096_25169920) shapeCasts_S4096_S1x4096
def w3 (V1 : FVec Ideal S5794x2897 .f32) (V2 : FVec Ideal S2897x5794 .f32) : FVec Ideal S2048x4096 .f32 :=
  shapeCast S2048x4096 (extractStridedSlice S8388608 ![25174016] (long V1 V2) slices_S33564672_S8388608_25174016) shapeCasts_S8388608_S2048x4096
def b3 (V1 : FVec Ideal S5794x2897 .f32) (V2 : FVec Ideal S2897x5794 .f32) : FVec Ideal S1x2048 .f32 :=
  shapeCast S1x2048 (extractStridedSlice S2048 ![33562624] (long V1 V2) slices_S33564672_S2048_33562624) shapeCasts_S2048_S1x2048
def h1 (x : FVec Ideal S4096x2048 .f32) (V1 : FVec Ideal S5794x2897 .f32) (V2 : FVec Ideal S2897x5794 .f32) : FVec Ideal S4096x4096 .f32 :=
  denseRelu x (w1 V1 V2) (b1 V1 V2)
def h2 (x : FVec Ideal S4096x2048 .f32) (V1 : FVec Ideal S5794x2897 .f32) (V2 : FVec Ideal S2897x5794 .f32) : FVec Ideal S4096x4096 .f32 :=
  denseRelu (h1 x V1 V2) (w2 V1 V2) (b2 V1 V2)
/-- The kernel program's result. -/
def y (x : FVec Ideal S4096x2048 .f32) (V1 : FVec Ideal S5794x2897 .f32) (V2 : FVec Ideal S2897x5794 .f32) : FVec Ideal S4096x2048 .f32 :=
  dense (h2 x V1 V2) (w3 V1 V2) (b3 V1 V2)

end Cert.KernelIdeal.Term

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Region0.lean ====
/- Region 0 (the low-rank product), read as a whole array. -/
import proofs.«126509_j24953759990119_1_alg».proof.Proof.Gen.KernelIdeal.Frame
import proofs.«126509_j24953759990119_1_alg».proof.Proof.Spec
import proofs.«126509_j24953759990119_1_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.LowRankMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The left factor, 6144 × 2944, as the region finds it. -/
abbrev lhsArr (c : Dev nD) : Mat 6144 2944 := V c main_v0

/-- The right factor, 2944 × 6144, as the region finds it. -/
abbrev rhsArr (c : Dev nD) : Mat 2944 6144 := V c main_v1

/-- The zero offsets, however they are spelt. -/
theorem zeros : (![0, 0] : Fin 2 → Nat) = fun _ => 0 := funext fun a => by fin_cases a <;> rfl

/-- One grid step's arithmetic at an entry: a 512 × 2944 block times a 2944 × 512 block, entry (p, q) the sum over
    the 2944 contracted coordinates of the products (the narrowing of the operands is the identity on the extended reals,
    and the accumulator starts at zero). -/
theorem payload_apply (x0 : Vec Ideal S512x2944 .f32) (x1 : Vec Ideal S2944x512 .f32) (p q : Fin 512) :
    k0_pay1 (F := Ideal) x0 x1 (ix2 p q) = ∑ k : Fin 2944, x0 (ix2 p k) * x1 (ix2 k q) := by
  unfold k0_pay1
  refine (Cert.PlainProduct.matmul_zero_apply (M := 512) (K := 2944) (N := 512) none _ _ p q).trans ?_
  refine Finset.sum_congr rfl fun k _ => ?_
  rw [truncf_apply, truncf_apply, shapeCast_self, shapeCast_self]

/-- The block indices over the 12 × 12 grid: the left factor's block row is the output's block row and its block
    column is 0; the right factor's block row is 0 and its block column is the output's block column; the output's
    block indices stay below 12. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 11 ∧ win0_2.index t (1 : Fin 2) ≤ 11 :=
  (by decide +kernel : ∀ t : Fin grid0.N, _)

/-- Every one of the 12 × 12 output blocks is some grid point's. -/
theorem index_onto : ∀ (a : Fin 12) (b : Fin 12), ∃ t : Fin cfg0.N, win0_2.index t = ![a.val, b.val] :=
  (by decide +kernel : ∀ (a : Fin 12) (b : Fin 12), ∃ t : Fin grid0.N, win0_2.index t = ![a.val, b.val])

/-- What a grid point writes back is its 512 × 512 block of the product of the two whole factors: the point's left
    block is the 512 rows of the left factor at the output block's rows (all 2944 columns), its right block the 512
    columns of the right factor at the output block's columns (all 2944 rows). -/
theorem flushed_eq (c : Dev nD) (t : Fin cfg0.N) :
    (dat0 (F := Ideal) V c).flushed 2 t
      = ((cfg0.win 2).blk t).view.read (Elt Ideal) (prod (lhsArr V c) (rhsArr V c)) := by
  show (cfg0.win 2).cut (grid0.coords t) ((dat0 (F := Ideal) V c).after 2 t) = _
  rw [after0_2]
  unfold out0_2
  rw [View.canon_unit_zero zeros]
  simp only [View.ld_unit_zero (S := S512x2944) zeros, View.ld_unit_zero (S := S2944x512) zeros]
  obtain ⟨e0, e1, e2, e3, e4, e5⟩ := index_facts t
  funext j
  obtain ⟨p, q, rfl⟩ : ∃ (p : Fin 512) (q : Fin 512), j = ix2 p q := ⟨j 0, j 1, eq_ix2 j⟩
  show k0_pay1 (F := Ideal) (iblk0 V c 0 t) (iblk0 V c 1 t) (ix2 p q)
    = ∑ k : Fin 2944, lhsArr V c (ix2 ((((cfg0.win 2).blk t).view.emb (ix2 p q)) 0) k)
        * rhsArr V c (ix2 k ((((cfg0.win 2).blk t).view.emb (ix2 p q)) 1))
  refine (payload_apply (iblk0 V c 0 t) (iblk0 V c 1 t) p q).trans ?_
  refine Finset.sum_congr rfl fun k _ => ?_
  have hl : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 2944 + 1 * k.val = k.val; omega
  have hr : ((cfg0.win 1).blk t).view.emb (ix2 k q) = ix2 k ((((cfg0.win 2).blk t).view.emb (ix2 p q)) 1) := by
    funext a; apply Fin.ext
    match a with
    | ⟨0, _⟩ => show win0_1.index t (0 : Fin 2) * 2944 + 1 * k.val = k.val; omega
    | ⟨1, _⟩ => show win0_1.index t (1 : Fin 2) * 512 + 1 * q.val = win0_2.index t (1 : Fin 2) * 512 + 1 * q.val; omega
  show lhsArr V c (((cfg0.win 0).blk t).view.emb (ix2 p k)) * rhsArr V c (((cfg0.win 1).blk t).view.emb (ix2 k q)) = _
  rw [hl, hr]
  rfl

/-- An entry of the 6144 × 6144 array is in a grid point's block iff each coordinate is in the block's 512-long range. -/
theorem mem_block (t : Fin cfg0.N) (i : S6144x6144.Idx) :
    i ∈ ((cfg0.win 2).blk t).view.set
      ↔ ∀ a : Fin 2, win0_2.index t a * S512x512.size a ≤ (i a).val
          ∧ (i a).val < win0_2.index t a * S512x512.size a + S512x512.size a := by
  show i ∈ ((View.whole main_v2).slice (win0_2.rect t)).set ↔ _
  rw [View.set_slice_whole, Rect.mem_set_unit]
  exact Iff.rfl

/-- The 144 blocks cover the array: entry (r, s) lies in the block with indices (r / 512, s / 512). -/
theorem covered (i : S6144x6144.Idx) :
    ∃ t : Fin cfg0.N, (cfg0.win 2).flush t = true ∧ i ∈ ((cfg0.win 2).blk t).view.set := by
  have hi0 : (i 0).val < 6144 := (i 0).isLt
  have hi1 : (i 1).val < 6144 := (i 1).isLt
  obtain ⟨t, ht⟩ := index_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

theorem final (c : Dev nD) :
    (dat0 (F := Ideal) V c).arrAt 2 cfg0.N = prod (V c main_v0) (V c main_v1) :=
  (dat0 (F := Ideal) V c).arrAt_eq_of_cover 2 (prod (lhsArr V c) (rhsArr V c))
    (fun t _ => flushed_eq V c t) covered

end Cert.KernelIdeal.Region0

end
-- ==== Proof.LibTransposedRhs.lean ====
/-
  A matrix product whose RIGHT operand is contracted along its second axis (`DotDims.transposedRhs M K N`: an M×K
  matrix times the transpose of an N×K matrix, what `einsum('mk,nk->mn')` lowers to), read at one entry at the ideal
  values: into the zero accumulator a `tpu.matmul` is the plain sum over the contracted coordinate of the products of
  the two rows' entries,
      (A · Bᵀ)(a, b) = Σ_c A(a, c) · B(b, c).
  Namespace `Cert.TransposedRhs`; imports only the library.
-/
import Idealize.ShloMosaic.Lib.ValueIdx
import Idealize.ShloMosaic.PureOps.Ideal.Laws

noncomputable section

namespace Cert.TransposedRhs

open Idealize.ShloMosaic Idealize.ShloMosaic.ValueIdx

variable {M K N : Nat}

/-- The left operand's index at output entry (a, b) and contracted coordinate c is (a, c). -/
theorem lhsIdx_eq (a : Fin M) (b : Fin N) (c : Fin K) :
    (DotDims.transposedRhs M K N).lhsIdx (ix2 a b) ((contrEquiv1 (DotDims.transposedRhs M K N) K rfl rfl).symm c) = ix2 a c := by
  have hc := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact hc

/-- The right operand's index there is (b, c): its second axis is the contracted one. -/
theorem rhsIdx_eq (a : Fin M) (b : Fin N) (c : Fin K) :
    (DotDims.transposedRhs M K N).rhsIdx (ix2 a b) ((contrEquiv1 (DotDims.transposedRhs M K N) K rfl rfl).symm c) = ix2 b c := by
  have hc := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact hc

/-- A `tpu.matmul` with the right operand contracted along its second axis, into the zero accumulator, read at
    entry (a, b): the sum over c of A(a, c) · B(b, c). -/
theorem matmul_zero_apply {φ₁ φ₂ : FTy} (prec : Option ContractPrecision)
    (A : FVec Ideal ⟨2, ![M, K]⟩ φ₁) (B : FVec Ideal ⟨2, ![N, K]⟩ φ₂) (a : Fin M) (b : Fin N) :
    FloatOps.matmul (DotDims.transposedRhs M K N) prec A B (constant ⟨2, ![M, N]⟩ .f32 0x00000000#32) (ix2 a b)
      = ∑ c : Fin K, A (ix2 a c) * B (ix2 b c) := by
  rw [Ideal.matmul_constant_zero_apply, ← Equiv.sum_comp (contrEquiv1 (DotDims.transposedRhs M K N) K rfl rfl).symm]
  refine Finset.sum_congr rfl fun c _ => ?_
  rw [lhsIdx_eq, rhsIdx_eq]

end Cert.TransposedRhs

end
-- ==== Proof.Region1.lean ====
/- Region 1 (first dense layer with relu), read as a whole array. -/
import proofs.«126509_j24953759990119_1_alg».proof.Proof.Gen.KernelIdeal.Frame
import proofs.«126509_j24953759990119_1_alg».proof.Proof.Spec
import proofs.«126509_j24953759990119_1_alg».proof.Proof.LibTransposedRhs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.LowRankMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block computation read at one entry (p, q): the inner product of row p of the first block with row q of
    the second, plus the bias of column q, and the maximum of that with zero. -/
theorem payload_apply (x0 : Vec Ideal S512x2048 .f32) (x1 : Vec Ideal S512x2048 .f32) (x2 : Vec Ideal S1x512 .f32)
    (p q : Fin 512) :
    k1_pay1 (F := Ideal) x0 x1 x2 (ix2 p q)
      = max ((∑ d : Fin 2048, x0 (ix2 p d) * x1 (ix2 q d)) + x2 (ix2 0 q)) 0 := by
  unfold k1_pay1
  show max (_ + _) _ = max (_ + _) _
  refine congrArg₂ max (congrArg₂ (· + ·) ?_ ?_) ?_
  · -- the product into the zero accumulator is the plain sum over the contracted coordinate
    refine (Cert.TransposedRhs.matmul_zero_apply (M := 512) (K := 2048) (N := 512) none _ _ p q).trans ?_
    refine Finset.sum_congr rfl fun d _ => ?_
    exact congrArg (fun z => x0 (ix2 p d) * z) (congrFun (shapeCast_self x1 shapeCasts_S512x2048_S512x2048) (ix2 q d))
  · -- the one-row bias broadcast down the rows reads its column's entry
    refine (broadcastTo_apply _ broadcasts_S1x512_S512x512 (ix2 p q) (ix2 (0 : Fin 1) q) fun a => ?_).trans
      (congrFun (shapeCast_self x2 shapeCasts_S1x512_S1x512) (ix2 0 q))
    match a with
    | ⟨0, _⟩ => rfl
    | ⟨1, _⟩ => rfl
  · -- the zero word is the extended real 0
    show Ideal.ofBits .f32 0x00000000#32 = 0
    exact Ideal.ofBits_zero_f32

/-! ## The block index maps over the grid -/

theorem zero_offsets : (![0, 0] : Fin 2 → Nat) = fun _ => 0 := funext fun a => by fin_cases a <;> rfl

/-- At every grid point: the X block is the row block of the output's row index, the W block the row block of the
    output's column index, the bias block the column block of the output's column index; both output block
    indices are below 8. -/
theorem block_indices : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 7 ∧ win1_3.index t (1 : Fin 2) ≤ 7 :=
  (by decide +kernel : ∀ t : Fin grid1.N, _)

/-- Every output block (a, b) of the 8 × 8 block grid is some point's. -/
theorem block_indices_onto : ∀ (a : Fin 8) (b : Fin 8), ∃ t : Fin cfg1.N, win1_3.index t = ![a.val, b.val] :=
  (by decide +kernel : ∀ (a : Fin 8) (b : Fin 8), ∃ t : Fin grid1.N, win1_3.index t = ![a.val, b.val])

/-! ## The input blocks as parts of their arrays -/

/-- Row p of the X block at point t is row (row block × 512 + p) of X. -/
theorem x_block (c : Dev nD) (t : Fin cfg1.N) (p : Fin 512) (d : Fin 2048) (r : Fin 4096)
    (hr : r.val = win1_3.index t (0 : Fin 2) * 512 + p.val) :
    (iblk1 (F := Ideal) V c 0 t : Vec Ideal S512x2048 .f32) (ix2 p d) = (V c main_arg0 : Mat 4096 2048) (ix2 r d) := by
  obtain ⟨e00, e01, -⟩ := block_indices t
  unfold iblk1
  rw [View.read_apply]
  show V c main_arg0 _ = V c main_arg0 _
  congr 1
  funext a; apply Fin.ext
  match a with
  | ⟨0, _⟩ => show win1_0.index t (0 : Fin 2) * 512 + 1 * p.val = r.val; omega
  | ⟨1, _⟩ => show win1_0.index t (1 : Fin 2) * 2048 + 1 * d.val = d.val; omega

/-- Row q of the W block at point t is row (column block × 512 + q) of W. -/
theorem w_block (c : Dev nD) (t : Fin cfg1.N) (q : Fin 512) (d : Fin 2048) (s : Fin 4096)
    (hs : s.val = win1_3.index t (1 : Fin 2) * 512 + q.val) :
    (iblk1 (F := Ideal) V c 1 t : Vec Ideal S512x2048 .f32) (ix2 q d) = (V c main_v7 : Mat 4096 2048) (ix2 s d) := by
  obtain ⟨-, -, e10, e11, -⟩ := block_indices t
  unfold iblk1
  rw [View.read_apply]
  show V c main_v7 _ = V c main_v7 _
  congr 1
  funext a; apply Fin.ext
  match a with
  | ⟨0, _⟩ => show win1_1.index t (0 : Fin 2) * 512 + 1 * q.val = s.val; omega
  | ⟨1, _⟩ => show win1_1.index t (1 : Fin 2) * 2048 + 1 * d.val = d.val; omega

/-- Entry q of the bias block at point t is entry (column block × 512 + q) of the bias row. -/
theorem bias_block (c : Dev nD) (t : Fin cfg1.N) (q : Fin 512) (s : Fin 4096)
    (hs : s.val = win1_3.index t (1 : Fin 2) * 512 + q.val) :
    (iblk1 (F := Ideal) V c 2 t : Vec Ideal S1x512 .f32) (ix2 0 q) = (V c main_v15 : Mat 1 4096) (ix2 0 s) := by
  obtain ⟨-, -, -, -, e20, e21, -⟩ := block_indices t
  unfold iblk1
  rw [View.read_apply]
  show V c main_v15 _ = V c main_v15 _
  congr 1
  funext a; apply Fin.ext
  match a with
  | ⟨0, _⟩ => show win1_2.index t (0 : Fin 2) * 1 + 1 * 0 = 0; omega
  | ⟨1, _⟩ => show win1_2.index t (1 : Fin 2) * 512 + 1 * q.val = s.val; omega

/-! ## What a grid point writes back -/

/-- Point t writes back block t of the dense layer with relu of the three arrays as the region finds them. -/
theorem flushed_eq (c : Dev nD) (t : Fin cfg1.N) :
    (dat1 (F := Ideal) V c).flushed 3 t
      = ((cfg1.win 3).blk t).view.read (Elt Ideal) (denseRelu (V c main_arg0) (V c main_v7) (V c main_v15)) := by
  show (cfg1.win 3).cut (grid1.coords t) ((dat1 V c).after 3 t) = _
  rw [after1_3]
  unfold out1_3
  rw [View.canon_unit_zero zero_offsets]
  simp only [View.ld_unit_zero (S := S512x2048) zero_offsets, View.ld_unit_zero (S := S1x512) zero_offsets]
  obtain ⟨-, -, -, -, -, -, b0, b1⟩ := block_indices t
  funext j
  obtain ⟨p, q, rfl⟩ : ∃ (p q : Fin 512), j = ix2 p q := ⟨j 0, j 1, eq_ix2 j⟩
  have hemb : ((cfg1.win 3).blk t).view.emb (ix2 p q)
      = ix2 (⟨win1_3.index t (0 : Fin 2) * 512 + p.val, by omega⟩ : Fin 4096)
          (⟨win1_3.index t (1 : Fin 2) * 512 + q.val, by omega⟩ : Fin 4096) := by
    funext a; apply Fin.ext
    match a with
    | ⟨0, _⟩ => show win1_3.index t (0 : Fin 2) * 512 + 1 * p.val = win1_3.index t (0 : Fin 2) * 512 + p.val; omega
    | ⟨1, _⟩ => show win1_3.index t (1 : Fin 2) * 512 + 1 * q.val = win1_3.index t (1 : Fin 2) * 512 + q.val; omega
  show k1_pay1 (iblk1 V c 0 t) (iblk1 V c 1 t) (iblk1 V c 2 t) (ix2 p q)
    = denseRelu (V c main_arg0) (V c main_v7) (V c main_v15) (((cfg1.win 3).blk t).view.emb (ix2 p q))
  refine (payload_apply (iblk1 V c 0 t) (iblk1 V c 1 t) (iblk1 V c 2 t) p q).trans ?_
  refine Eq.trans ?_ (congrArg (denseRelu (V c main_arg0) (V c main_v7) (V c main_v15)) hemb.symm)
  refine Eq.trans ?_ (denseRelu_apply (V c main_arg0) (V c main_v7) (V c main_v15) _ _).symm
  refine congrArg₂ max (congrArg₂ (· + ·) (Finset.sum_congr rfl fun d _ => congrArg₂ (· * ·) ?_ ?_) ?_) rfl
  · exact x_block V c t p d _ rfl
  · exact w_block V c t q d _ rfl
  · exact bias_block V c t q _ rfl

/-! ## The blocks tile the array -/

/-- An index of the output array is in point t's block iff each coordinate is in the block's range on its axis. -/
theorem mem_block (t : Fin cfg1.N) (i : S4096x4096.Idx) :
    i ∈ ((cfg1.win 3).blk t).view.set ↔ ∀ a : Fin 2, win1_3.index t a * S512x512.size a ≤ (i a).val
      ∧ (i a).val < win1_3.index t a * S512x512.size a + S512x512.size a := by
  show i ∈ ((View.whole main_v16).slice (win1_3.rect t)).set ↔ _
  rw [View.set_slice_whole, Rect.mem_set_unit]
  exact Iff.rfl

/-- Entry (r, s) of the output is in the block with block indices (r / 512, s / 512). -/
theorem covered (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := block_indices_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-! ## The whole array -/

theorem final (c : Dev nD) :
    (dat1 (F := Ideal) V c).arrAt 3 cfg1.N = denseRelu (V c main_arg0) (V c main_v7) (V c main_v15) :=
  (dat1 (F := Ideal) V c).arrAt_eq_of_cover 3 (denseRelu (V c main_arg0) (V c main_v7) (V c main_v15))
    (fun t _ => flushed_eq V c t) covered

end Cert.KernelIdeal.Region1

end
-- ==== Proof.Region2.lean ====
/- Region 2 (second dense layer with relu), read as a whole array. -/
import proofs.«126509_j24953759990119_1_alg».proof.Proof.Gen.KernelIdeal.Frame
import proofs.«126509_j24953759990119_1_alg».proof.Proof.Spec
import proofs.«126509_j24953759990119_1_alg».proof.Proof.LibTransposedRhs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.LowRankMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block computation read at one entry (p, q): the inner product of row p of the first block with row q of
    the second, plus the bias of column q, and the maximum of that with zero. -/
theorem payload_apply (x0 : Vec Ideal S512x4096 .f32) (x1 : Vec Ideal S512x4096 .f32) (x2 : Vec Ideal S1x512 .f32)
    (p q : Fin 512) :
    k2_pay1 (F := Ideal) x0 x1 x2 (ix2 p q)
      = max ((∑ d : Fin 4096, x0 (ix2 p d) * x1 (ix2 q d)) + x2 (ix2 0 q)) 0 := by
  unfold k2_pay1
  show max (_ + _) _ = max (_ + _) _
  refine congrArg₂ max (congrArg₂ (· + ·) ?_ ?_) ?_
  · -- the product into the zero accumulator is the plain sum over the contracted coordinate
    refine (Cert.TransposedRhs.matmul_zero_apply (M := 512) (K := 4096) (N := 512) none _ _ p q).trans ?_
    refine Finset.sum_congr rfl fun d _ => ?_
    exact congrArg₂ (· * ·) (congrFun (shapeCast_self x0 shapeCasts_S512x4096_S512x4096) (ix2 p d))
      (congrFun (shapeCast_self x1 shapeCasts_S512x4096_S512x4096) (ix2 q d))
  · -- the one-row bias broadcast down the rows reads its column's entry
    refine (broadcastTo_apply _ broadcasts_S1x512_S512x512 (ix2 p q) (ix2 (0 : Fin 1) q) fun a => ?_).trans
      (congrFun (shapeCast_self x2 shapeCasts_S1x512_S1x512) (ix2 0 q))
    match a with
    | ⟨0, _⟩ => rfl
    | ⟨1, _⟩ => rfl
  · -- the zero word is the extended real 0
    show Ideal.ofBits .f32 0x00000000#32 = 0
    exact Ideal.ofBits_zero_f32

/-! ## The block index maps over the grid -/

theorem zero_offsets : (![0, 0] : Fin 2 → Nat) = fun _ => 0 := funext fun a => by fin_cases a <;> rfl

/-- At every grid point: the X block is the row block of the output's row index, the W block the row block of the
    output's column index, the bias block the column block of the output's column index; both output block
    indices are below 8. -/
theorem block_indices : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 7 ∧ win2_3.index t (1 : Fin 2) ≤ 7 :=
  (by decide +kernel : ∀ t : Fin grid2.N, _)

/-- Every output block (a, b) of the 8 × 8 block grid is some point's. -/
theorem block_indices_onto : ∀ (a : Fin 8) (b : Fin 8), ∃ t : Fin cfg2.N, win2_3.index t = ![a.val, b.val] :=
  (by decide +kernel : ∀ (a : Fin 8) (b : Fin 8), ∃ t : Fin grid2.N, win2_3.index t = ![a.val, b.val])

/-! ## The input blocks as parts of their arrays -/

/-- Row p of the X block at point t is row (row block × 512 + p) of X. -/
theorem x_block (c : Dev nD) (t : Fin cfg2.N) (p : Fin 512) (d : Fin 4096) (r : Fin 4096)
    (hr : r.val = win2_3.index t (0 : Fin 2) * 512 + p.val) :
    (iblk2 (F := Ideal) V c 0 t : Vec Ideal S512x4096 .f32) (ix2 p d) = (V c main_v16 : Mat 4096 4096) (ix2 r d) := by
  obtain ⟨e00, e01, -⟩ := block_indices t
  unfold iblk2
  rw [View.read_apply]
  show V c main_v16 _ = V c main_v16 _
  congr 1
  funext a; apply Fin.ext
  match a with
  | ⟨0, _⟩ => show win2_0.index t (0 : Fin 2) * 512 + 1 * p.val = r.val; omega
  | ⟨1, _⟩ => show win2_0.index t (1 : Fin 2) * 4096 + 1 * d.val = d.val; omega

/-- Row q of the W block at point t is row (column block × 512 + q) of W. -/
theorem w_block (c : Dev nD) (t : Fin cfg2.N) (q : Fin 512) (d : Fin 4096) (s : Fin 4096)
    (hs : s.val = win2_3.index t (1 : Fin 2) * 512 + q.val) :
    (iblk2 (F := Ideal) V c 1 t : Vec Ideal S512x4096 .f32) (ix2 q d) = (V c main_v10 : Mat 4096 4096) (ix2 s d) := by
  obtain ⟨-, -, e10, e11, -⟩ := block_indices t
  unfold iblk2
  rw [View.read_apply]
  show V c main_v10 _ = V c main_v10 _
  congr 1
  funext a; apply Fin.ext
  match a with
  | ⟨0, _⟩ => show win2_1.index t (0 : Fin 2) * 512 + 1 * q.val = s.val; omega
  | ⟨1, _⟩ => show win2_1.index t (1 : Fin 2) * 4096 + 1 * d.val = d.val; omega

/-- Entry q of the bias block at point t is entry (column block × 512 + q) of the bias row. -/
theorem bias_block (c : Dev nD) (t : Fin cfg2.N) (q : Fin 512) (s : Fin 4096)
    (hs : s.val = win2_3.index t (1 : Fin 2) * 512 + q.val) :
    (iblk2 (F := Ideal) V c 2 t : Vec Ideal S1x512 .f32) (ix2 0 q) = (V c main_v17 : Mat 1 4096) (ix2 0 s) := by
  obtain ⟨-, -, -, -, e20, e21, -⟩ := block_indices t
  unfold iblk2
  rw [View.read_apply]
  show V c main_v17 _ = V c main_v17 _
  congr 1
  funext a; apply Fin.ext
  match a with
  | ⟨0, _⟩ => show win2_2.index t (0 : Fin 2) * 1 + 1 * 0 = 0; omega
  | ⟨1, _⟩ => show win2_2.index t (1 : Fin 2) * 512 + 1 * q.val = s.val; omega

/-! ## What a grid point writes back -/

/-- Point t writes back block t of the dense layer with relu of the three arrays as the region finds them. -/
theorem flushed_eq (c : Dev nD) (t : Fin cfg2.N) :
    (dat2 (F := Ideal) V c).flushed 3 t
      = ((cfg2.win 3).blk t).view.read (Elt Ideal) (denseRelu (V c main_v16) (V c main_v10) (V c main_v17)) := by
  show (cfg2.win 3).cut (grid2.coords t) ((dat2 V c).after 3 t) = _
  rw [after2_3]
  unfold out2_3
  rw [View.canon_unit_zero zero_offsets]
  simp only [View.ld_unit_zero (S := S512x4096) zero_offsets, View.ld_unit_zero (S := S1x512) zero_offsets]
  obtain ⟨-, -, -, -, -, -, b0, b1⟩ := block_indices t
  funext j
  obtain ⟨p, q, rfl⟩ : ∃ (p q : Fin 512), j = ix2 p q := ⟨j 0, j 1, eq_ix2 j⟩
  have hemb : ((cfg2.win 3).blk t).view.emb (ix2 p q)
      = ix2 (⟨win2_3.index t (0 : Fin 2) * 512 + p.val, by omega⟩ : Fin 4096)
          (⟨win2_3.index t (1 : Fin 2) * 512 + q.val, by omega⟩ : Fin 4096) := by
    funext a; apply Fin.ext
    match a with
    | ⟨0, _⟩ => show win2_3.index t (0 : Fin 2) * 512 + 1 * p.val = win2_3.index t (0 : Fin 2) * 512 + p.val; omega
    | ⟨1, _⟩ => show win2_3.index t (1 : Fin 2) * 512 + 1 * q.val = win2_3.index t (1 : Fin 2) * 512 + q.val; omega
  show k2_pay1 (iblk2 V c 0 t) (iblk2 V c 1 t) (iblk2 V c 2 t) (ix2 p q)
    = denseRelu (V c main_v16) (V c main_v10) (V c main_v17) (((cfg2.win 3).blk t).view.emb (ix2 p q))
  refine (payload_apply (iblk2 V c 0 t) (iblk2 V c 1 t) (iblk2 V c 2 t) p q).trans ?_
  refine Eq.trans ?_ (congrArg (denseRelu (V c main_v16) (V c main_v10) (V c main_v17)) hemb.symm)
  refine Eq.trans ?_ (denseRelu_apply (V c main_v16) (V c main_v10) (V c main_v17) _ _).symm
  refine congrArg₂ max (congrArg₂ (· + ·) (Finset.sum_congr rfl fun d _ => congrArg₂ (· * ·) ?_ ?_) ?_) rfl
  · exact x_block V c t p d _ rfl
  · exact w_block V c t q d _ rfl
  · exact bias_block V c t q _ rfl

/-! ## The blocks tile the array -/

/-- An index of the output array is in point t's block iff each coordinate is in the block's range on its axis. -/
theorem mem_block (t : Fin cfg2.N) (i : S4096x4096.Idx) :
    i ∈ ((cfg2.win 3).blk t).view.set ↔ ∀ a : Fin 2, win2_3.index t a * S512x512.size a ≤ (i a).val
      ∧ (i a).val < win2_3.index t a * S512x512.size a + S512x512.size a := by
  show i ∈ ((View.whole main_v18).slice (win2_3.rect t)).set ↔ _
  rw [View.set_slice_whole, Rect.mem_set_unit]
  exact Iff.rfl

/-- Entry (r, s) of the output is in the block with block indices (r / 512, s / 512). -/
theorem covered (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := block_indices_onto ⟨(i 0).val / 512, by omega⟩ ⟨(i 1).val / 512, by omega⟩
  have q0 : win2_3.index t (0 : Fin 2) = (i 0).val / 512 := congrFun ht 0
  have q1 : win2_3.index t (1 : Fin 2) = (i 1).val / 512 := congrFun ht 1
  refine ⟨t, flush2_3 t, ?_⟩
  rw [mem_block]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-! ## The whole array -/

theorem final (c : Dev nD) :
    (dat2 (F := Ideal) V c).arrAt 3 cfg2.N = denseRelu (V c main_v16) (V c main_v10) (V c main_v17) :=
  (dat2 (F := Ideal) V c).arrAt_eq_of_cover 3 (denseRelu (V c main_v16) (V c main_v10) (V c main_v17))
    (fun t _ => flushed_eq V c t) covered

end Cert.KernelIdeal.Region2

end
-- ==== Proof.Region3.lean ====
/-
  Region 3, read as a whole array: the last dense layer. Its grid is 8 × 4; at point (i, j) it reads rows
  512·i … 512·i + 511 of the activations [4096, 4096], rows 512·j … 512·j + 511 of the weights [2048, 4096] and
  entries 512·j … 512·j + 511 of the one-row bias [1, 2048], and writes block (i, j) of the output [4096, 2048]:
  each entry the inner product of an activation row with a weight row, plus the bias of the column.
-/
import proofs.«126509_j24953759990119_1_alg».proof.Proof.Gen.KernelIdeal.Frame
import proofs.«126509_j24953759990119_1_alg».proof.Proof.Spec
import proofs.«126509_j24953759990119_1_alg».proof.Proof.LibTransposedRhs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.LowRankMlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block computation read at one entry (p, q): the inner product of row p of the activation block with row q
    of the weight block, plus the bias of column q. -/
theorem payload_apply (x0 : Vec Ideal S512x4096 .f32) (x1 : Vec Ideal S512x4096 .f32) (x2 : Vec Ideal S1x512 .f32)
    (p q : Fin 512) :
    k3_pay1 (F := Ideal) x0 x1 x2 (ix2 p q)
      = (∑ d : Fin 4096, x0 (ix2 p d) * x1 (ix2 q d)) + x2 (ix2 0 q) := by
  unfold k3_pay1
  show _ + _ = _ + _
  refine congrArg₂ (· + ·) ?_ ?_
  · -- the product into the zero accumulator is the plain sum over the contracted coordinate
    refine (Cert.TransposedRhs.matmul_zero_apply (M := 512) (K := 4096) (N := 512) none _ _ p q).trans ?_
    refine Finset.sum_congr rfl fun d _ => ?_
    exact congrArg₂ (· * ·) (congrFun (shapeCast_self x0 shapeCasts_S512x4096_S512x4096) (ix2 p d))
      (congrFun (shapeCast_self x1 shapeCasts_S512x4096_S512x4096) (ix2 q d))
  · -- the one-row bias broadcast down the rows reads its column's entry
    refine (broadcastTo_apply _ broadcasts_S1x512_S512x512 (ix2 p q) (ix2 (0 : Fin 1) q) fun a => ?_).trans
      (congrFun (shapeCast_self x2 shapeCasts_S1x512_S1x512) (ix2 0 q))
    match a with
    | ⟨0, _⟩ => rfl
    | ⟨1, _⟩ => rfl

/-! ## The block index maps over the grid -/

theorem zero_offsets : (![0, 0] : Fin 2 → Nat) = fun _ => 0 := funext fun a => by fin_cases a <;> rfl

/-- At every grid point: the activation block is the row block of the output's row index, the weight block the row
    block of the output's column index, the bias block the column block of the output's column index; the output's
    row block index is below 8 and its column block index below 4. -/
theorem block_indices : ∀ t : Fin cfg3.N,
    win3_0.index t (0 : Fin 2) = win3_3.index t (0 : Fin 2) ∧ win3_0.index t (1 : Fin 2) = 0
    ∧ win3_1.index t (0 : Fin 2) = win3_3.index t (1 : Fin 2) ∧ win3_1.index t (1 : Fin 2) = 0
    ∧ win3_2.index t (0 : Fin 2) = 0 ∧ win3_2.index t (1 : Fin 2) = win3_3.index t (1 : Fin 2)
    ∧ win3_3.index t (0 : Fin 2) ≤ 7 ∧ win3_3.index t (1 : Fin 2) ≤ 3 :=
  (by decide +kernel : ∀ t : Fin grid3.N, _)

/-- Every output block (a, b) of the 8 × 4 block grid is some point's. -/
theorem block_indices_onto : ∀ (a : Fin 8) (b : Fin 4), ∃ t : Fin cfg3.N, win3_3.index t = ![a.val, b.val] :=
  (by decide +kernel : ∀ (a : Fin 8) (b : Fin 4), ∃ t : Fin grid3.N, win3_3.index t = ![a.val, b.val])

/-! ## The input blocks as parts of their arrays -/

/-- Row p of the activation block at point t is row (row block × 512 + p) of the activations. -/
theorem x_block (c : Dev nD) (t : Fin cfg3.N) (p : Fin 512) (d : Fin 4096) (r : Fin 4096)
    (hr : r.val = win3_3.index t (0 : Fin 2) * 512 + p.val) :
    (iblk3 (F := Ideal) V c 0 t : Vec Ideal S512x4096 .f32) (ix2 p d) = (V c main_v18 : Mat 4096 4096) (ix2 r d) := by
  obtain ⟨e00, e01, -⟩ := block_indices t
  unfold iblk3
  rw [View.read_apply]
  show V c main_v18 _ = V c main_v18 _
  congr 1
  funext a; apply Fin.ext
  match a with
  | ⟨0, _⟩ => show win3_0.index t (0 : Fin 2) * 512 + 1 * p.val = r.val; omega
  | ⟨1, _⟩ => show win3_0.index t (1 : Fin 2) * 4096 + 1 * d.val = d.val; omega

/-- Row q of the weight block at point t is row (column block × 512 + q) of the weights. -/
theorem w_block (c : Dev nD) (t : Fin cfg3.N) (q : Fin 512) (d : Fin 4096) (s : Fin 2048)
    (hs : s.val = win3_3.index t (1 : Fin 2) * 512 + q.val) :
    (iblk3 (F := Ideal) V c 1 t : Vec Ideal S512x4096 .f32) (ix2 q d) = (V c main_v13 : Mat 2048 4096) (ix2 s d) := by
  obtain ⟨-, -, e10, e11, -⟩ := block_indices t
  unfold iblk3
  rw [View.read_apply]
  show V c main_v13 _ = V c main_v13 _
  congr 1
  funext a; apply Fin.ext
  match a with
  | ⟨0, _⟩ => show win3_1.index t (0 : Fin 2) * 512 + 1 * q.val = s.val; omega
  | ⟨1, _⟩ => show win3_1.index t (1 : Fin 2) * 4096 + 1 * d.val = d.val; omega

/-- Entry q of the bias block at point t is entry (column block × 512 + q) of the bias row. -/
theorem bias_block (c : Dev nD) (t : Fin cfg3.N) (q : Fin 512) (s : Fin 2048)
    (hs : s.val = win3_3.index t (1 : Fin 2) * 512 + q.val) :
    (iblk3 (F := Ideal) V c 2 t : Vec Ideal S1x512 .f32) (ix2 0 q) = (V c main_v19 : Mat 1 2048) (ix2 0 s) := by
  obtain ⟨-, -, -, -, e20, e21, -⟩ := block_indices t
  unfold iblk3
  rw [View.read_apply]
  show V c main_v19 _ = V c main_v19 _
  congr 1
  funext a; apply Fin.ext
  match a with
  | ⟨0, _⟩ => show win3_2.index t (0 : Fin 2) * 1 + 1 * 0 = 0; omega
  | ⟨1, _⟩ => show win3_2.index t (1 : Fin 2) * 512 + 1 * q.val = s.val; omega

/-! ## What a grid point writes back -/

/-- Point t writes back block t of the dense layer of the three arrays as the region finds them. -/
theorem flushed_eq (c : Dev nD) (t : Fin cfg3.N) :
    (dat3 (F := Ideal) V c).flushed 3 t
      = ((cfg3.win 3).blk t).view.read (Elt Ideal) (dense (V c main_v18) (V c main_v13) (V c main_v19)) := by
  show (cfg3.win 3).cut (grid3.coords t) ((dat3 V c).after 3 t) = _
  rw [after3_3]
  unfold out3_3
  rw [View.canon_unit_zero zero_offsets]
  simp only [View.ld_unit_zero (S := S512x4096) zero_offsets, View.ld_unit_zero (S := S1x512) zero_offsets]
  obtain ⟨-, -, -, -, -, -, b0, b1⟩ := block_indices t
  funext j
  obtain ⟨p, q, rfl⟩ : ∃ (p q : Fin 512), j = ix2 p q := ⟨j 0, j 1, eq_ix2 j⟩
  have hemb : ((cfg3.win 3).blk t).view.emb (ix2 p q)
      = ix2 (⟨win3_3.index t (0 : Fin 2) * 512 + p.val, by omega⟩ : Fin 4096)
          (⟨win3_3.index t (1 : Fin 2) * 512 + q.val, by omega⟩ : Fin 2048) := by
    funext a; apply Fin.ext
    match a with
    | ⟨0, _⟩ => show win3_3.index t (0 : Fin 2) * 512 + 1 * p.val = win3_3.index t (0 : Fin 2) * 512 + p.val; omega
    | ⟨1, _⟩ => show win3_3.index t (1 : Fin 2) * 512 + 1 * q.val = win3_3.index t (1 : Fin 2) * 512 + q.val; omega
  show k3_pay1 (iblk3 V c 0 t) (iblk3 V c 1 t) (iblk3 V c 2 t) (ix2 p q)
    = dense (V c main_v18) (V c main_v13) (V c main_v19) (((cfg3.win 3).blk t).view.emb (ix2 p q))
  refine (payload_apply (iblk3 V c 0 t) (iblk3 V c 1 t) (iblk3 V c 2 t) p q).trans ?_
  refine Eq.trans ?_ (congrArg (dense (V c main_v18) (V c main_v13) (V c main_v19)) hemb.symm)
  refine Eq.trans ?_ (dense_apply (V c main_v18) (V c main_v13) (V c main_v19) _ _).symm
  refine congrArg₂ (· + ·) (Finset.sum_congr rfl fun d _ => congrArg₂ (· * ·) ?_ ?_) ?_
  · exact x_block V c t p d _ rfl
  · exact w_block V c t q d _ rfl
  · exact bias_block V c t q _ rfl

/-! ## The blocks tile the array -/

/-- An index of the output array is in point t's block iff each coordinate is in the block's range on its axis. -/
theorem mem_block (t : Fin cfg3.N) (i : S4096x2048.Idx) :
    i ∈ ((cfg3.win 3).blk t).view.set ↔ ∀ a : Fin 2, win3_3.index t a * S512x512.size a ≤ (i a).val
      ∧ (i a).val < win3_3.index t a * S512x512.size a + S512x512.size a := by
  show i ∈ ((View.whole main_v20).slice (win3_3.rect t)).set ↔ _
  rw [View.set_slice_whole, Rect.mem_set_unit]
  exact Iff.rfl

/-- Entry (r, s) of the output is in the block with block indices (r / 512, s / 512). -/
theorem covered (i : S4096x2048.Idx) :
    ∃ t : Fin cfg3.N, (cfg3.win 3).flush t = true ∧ i ∈ ((cfg3.win 3).blk t).view.set := by
  have hi0 : (i 0).val < 4096 := (i 0).isLt
  have hi1 : (i 1).val < 2048 := (i 1).isLt
  obtain ⟨t, ht⟩ := block_indices_onto ⟨(i 0).val / 512, by omega⟩ ⟨(i 1).val / 512, by omega⟩
  have q0 : win3_3.index t (0 : Fin 2) = (i 0).val / 512 := congrFun ht 0
  have q1 : win3_3.index t (1 : Fin 2) = (i 1).val / 512 := congrFun ht 1
  refine ⟨t, flush3_3 t, ?_⟩
  rw [mem_block]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 512 ≤ (i 1).val ∧ (i 1).val < win3_3.index t (1 : Fin 2) * 512 + 512; omega

/-! ## The whole array -/

theorem final (c : Dev nD) :
    (dat3 (F := Ideal) V c).arrAt 3 cfg3.N = dense (V c main_v18) (V c main_v13) (V c main_v19) :=
  (dat3 (F := Ideal) V c).arrAt_eq_of_cover 3 (dense (V c main_v18) (V c main_v13) (V c main_v19))
    (fun t _ => flushed_eq V c t) covered

end Cert.KernelIdeal.Region3

end
-- ==== Proof.KernelChain.lean ====
/-
  The kernel program's result buffer, read back through its @main: from the contents every buffer holds at the
  last segment boundary, step by step to the three arguments. Each host stretch is read operation by operation
  (a padding, a slice, a reshape: the buffer's contents are that operation of its operand's contents), each kernel
  region by what it leaves in its output array (a matrix product; a dense layer), and a buffer that a stretch or a
  region does not write keeps what it held. The result is the term `Term.y` of the arguments.
-/
import proofs.«126509_j24953759990119_1_alg».proof.Proof.Gen.KernelIdeal.Frame
import proofs.«126509_j24953759990119_1_alg».proof.Proof.KernelTerm
import proofs.«126509_j24953759990119_1_alg».proof.Proof.Region0
import proofs.«126509_j24953759990119_1_alg».proof.Proof.Region1
import proofs.«126509_j24953759990119_1_alg».proof.Proof.Region2
import proofs.«126509_j24953759990119_1_alg».proof.Proof.Region3
import Idealize.ShloMosaic.Lib.StableHlo.Run

set_option maxRecDepth 16384

noncomputable section

namespace Cert.KernelIdeal.Chain

open Cert.KernelIdeal Cert.KernelIdeal.Gen Cert.KernelIdeal.Facts₀ Cert.LowRankMlp
open Idealize.ShloMosaic Idealize.ShloMosaic.TcCoe Idealize.ShloMosaic.StableHlo Idealize.SL.Sem

variable (m : (ℓ : Loc nD τ sig) → Buf (Elt Ideal) ℓ) (ρ : Dev nD → PrngReg)

/-- The three arguments as the launch memory holds them. -/
abbrev argX (c : Dev nD) : FVec Ideal S4096x2048 .f32 := m ((c : Thread nD τ).loc main_arg0)
abbrev argV1 (c : Dev nD) : FVec Ideal S5794x2897 .f32 := m ((c : Thread nD τ).loc main_arg1)
abbrev argV2 (c : Dev nD) : FVec Ideal S2897x5794 .f32 := m ((c : Thread nD τ).loc main_arg2)

/-- Region 0's entry: the two padded factors. -/
theorem W4_v0 (c : Dev nD) : W4 m ρ c (Proc.devRef .tc main_v0) = Term.p1 (argV1 m c) := by
  show StableHlo.after hostOps0_3 (StableHlo.after hostOps0_2 (StableHlo.after hostOps0_1 (StableHlo.after hostOps0 (W0 m ρ c)))) (Proc.devRef .tc main_v0) = _
  after_results
  rfl
theorem W4_v1 (c : Dev nD) : W4 m ρ c (Proc.devRef .tc main_v1) = Term.p2 (argV2 m c) := by
  show StableHlo.after hostOps0_3 (StableHlo.after hostOps0_2 (StableHlo.after hostOps0_1 (StableHlo.after hostOps0 (W0 m ρ c)))) (Proc.devRef .tc main_v1) = _
  after_results
  rfl
theorem W4_arg0 (c : Dev nD) : W4 m ρ c (Proc.devRef .tc main_arg0) = argX m c := by
  show StableHlo.after hostOps0_3 (StableHlo.after hostOps0_2 (StableHlo.after hostOps0_1 (StableHlo.after hostOps0 (W0 m ρ c)))) (Proc.devRef .tc main_arg0) = _
  after_results

/-- Region 0's exit: the padded product in its output array; the first argument untouched. -/
theorem W5_v2 (c : Dev nD) : W5 m ρ c (Proc.devRef .tc main_v2) = Term.big (argV1 m c) (argV2 m c) := by
  refine (W5_arr m ρ c 2).trans ?_
  refine (Region0.final (V4 m ρ) c).trans ?_
  show prod (W4 m ρ c (Proc.devRef .tc main_v0)) (W4 m ρ c (Proc.devRef .tc main_v1)) = _
  rw [W4_v0, W4_v1]
  rfl
theorem W5_arg0 (c : Dev nD) : W5 m ρ c (Proc.devRef .tc main_arg0) = argX m c :=
  (W5_of_ne m ρ c main_arg0 (by decide)).trans (W4_arg0 m ρ c)

/-- Region 1's entry: the parameters cut out of the product (the later layers' biases still as vectors). -/
theorem W6_v7 (c : Dev nD) : W6 m ρ c (Proc.devRef .tc main_v7) = Term.w1 (argV1 m c) (argV2 m c) := by
  show StableHlo.after hostOps1 (W5 m ρ c) (Proc.devRef .tc main_v7) = _
  after_results
  rw [W5_v2]
  rfl
theorem W6_v15 (c : Dev nD) : W6 m ρ c (Proc.devRef .tc main_v15) = Term.b1 (argV1 m c) (argV2 m c) := by
  show StableHlo.after hostOps1 (W5 m ρ c) (Proc.devRef .tc main_v15) = _
  after_results
  rw [W5_v2]
  rfl
theorem W6_v10 (c : Dev nD) : W6 m ρ c (Proc.devRef .tc main_v10) = Term.w2 (argV1 m c) (argV2 m c) := by
  show StableHlo.after hostOps1 (W5 m ρ c) (Proc.devRef .tc main_v10) = _
  after_results
  rw [W5_v2]
  rfl
theorem W6_v13 (c : Dev nD) : W6 m ρ c (Proc.devRef .tc main_v13) = Term.w3 (argV1 m c) (argV2 m c) := by
  show StableHlo.after hostOps1 (W5 m ρ c) (Proc.devRef .tc main_v13) = _
  after_results
  rw [W5_v2]
  rfl
theorem W6_v11 (c : Dev nD) : W6 m ρ c (Proc.devRef .tc main_v11) = extractStridedSlice S4096 ![25169920] (Term.long (argV1 m c) (argV2 m c)) Facts₀.slices_S33564672_S4096_25169920 := by
  show StableHlo.after hostOps1 (W5 m ρ c) (Proc.devRef .tc main_v11) = _
  after_results
  rw [W5_v2]
  rfl
theorem W6_v14 (c : Dev nD) : W6 m ρ c (Proc.devRef .tc main_v14) = extractStridedSlice S2048 ![33562624] (Term.long (argV1 m c) (argV2 m c)) Facts₀.slices_S33564672_S2048_33562624 := by
  show StableHlo.after hostOps1 (W5 m ρ c) (Proc.devRef .tc main_v14) = _
  after_results
  rw [W5_v2]
  rfl
theorem W6_arg0 (c : Dev nD) : W6 m ρ c (Proc.devRef .tc main_arg0) = argX m c := by
  show StableHlo.after hostOps1 (W5 m ρ c) (Proc.devRef .tc main_arg0) = _
  after_results
  exact W5_arg0 m ρ c

/-- Region 1's exit: the first layer in its output array; the later layers' parameters untouched. -/
theorem W7_v16 (c : Dev nD) : W7 m ρ c (Proc.devRef .tc main_v16) = Term.h1 (argX m c) (argV1 m c) (argV2 m c) := by
  refine (W7_arr m ρ c 3).trans ?_
  refine (Region1.final (V6 m ρ) c).trans ?_
  show denseRelu (W6 m ρ c (Proc.devRef .tc main_arg0)) (W6 m ρ c (Proc.devRef .tc main_v7)) (W6 m ρ c (Proc.devRef .tc main_v15)) = _
  rw [W6_arg0, W6_v7, W6_v15]
  rfl
theorem W7_v10 (c : Dev nD) : W7 m ρ c (Proc.devRef .tc main_v10) = Term.w2 (argV1 m c) (argV2 m c) :=
  (W7_of_ne m ρ c main_v10 (by decide)).trans (W6_v10 m ρ c)
theorem W7_v13 (c : Dev nD) : W7 m ρ c (Proc.devRef .tc main_v13) = Term.w3 (argV1 m c) (argV2 m c) :=
  (W7_of_ne m ρ c main_v13 (by decide)).trans (W6_v13 m ρ c)
theorem W7_v11 (c : Dev nD) : W7 m ρ c (Proc.devRef .tc main_v11) = extractStridedSlice S4096 ![25169920] (Term.long (argV1 m c) (argV2 m c)) Facts₀.slices_S33564672_S4096_25169920 :=
  (W7_of_ne m ρ c main_v11 (by decide)).trans (W6_v11 m ρ c)
theorem W7_v14 (c : Dev nD) : W7 m ρ c (Proc.devRef .tc main_v14) = extractStridedSlice S2048 ![33562624] (Term.long (argV1 m c) (argV2 m c)) Facts₀.slices_S33564672_S2048_33562624 :=
  (W7_of_ne m ρ c main_v14 (by decide)).trans (W6_v14 m ρ c)

/-- Region 2's entry: the second bias reshaped to one row. -/
theorem W8_v17 (c : Dev nD) : W8 m ρ c (Proc.devRef .tc main_v17) = Term.b2 (argV1 m c) (argV2 m c) := by
  show StableHlo.after hostOps2 (W7 m ρ c) (Proc.devRef .tc main_v17) = _
  after_results
  rw [W7_v11]
  rfl
theorem W8_v16 (c : Dev nD) : W8 m ρ c (Proc.devRef .tc main_v16) = Term.h1 (argX m c) (argV1 m c) (argV2 m c) := by
  show StableHlo.after hostOps2 (W7 m ρ c) (Proc.devRef .tc main_v16) = _
  after_results
  exact W7_v16 m ρ c
theorem W8_v10 (c : Dev nD) : W8 m ρ c (Proc.devRef .tc main_v10) = Term.w2 (argV1 m c) (argV2 m c) := by
  show StableHlo.after hostOps2 (W7 m ρ c) (Proc.devRef .tc main_v10) = _
  after_results
  exact W7_v10 m ρ c
theorem W8_v13 (c : Dev nD) : W8 m ρ c (Proc.devRef .tc main_v13) = Term.w3 (argV1 m c) (argV2 m c) := by
  show StableHlo.after hostOps2 (W7 m ρ c) (Proc.devRef .tc main_v13) = _
  after_results
  exact W7_v13 m ρ c
theorem W8_v14 (c : Dev nD) : W8 m ρ c (Proc.devRef .tc main_v14) = extractStridedSlice S2048 ![33562624] (Term.long (argV1 m c) (argV2 m c)) Facts₀.slices_S33564672_S2048_33562624 := by
  show StableHlo.after hostOps2 (W7 m ρ c) (Proc.devRef .tc main_v14) = _
  after_results
  exact W7_v14 m ρ c

/-- Region 2's exit: the second layer. -/
theorem W9_v18 (c : Dev nD) : W9 m ρ c (Proc.devRef .tc main_v18) = Term.h2 (argX m c) (argV1 m c) (argV2 m c) := by
  refine (W9_arr m ρ c 3).trans ?_
  refine (Region2.final (V8 m ρ) c).trans ?_
  show denseRelu (W8 m ρ c (Proc.devRef .tc main_v16)) (W8 m ρ c (Proc.devRef .tc main_v10)) (W8 m ρ c (Proc.devRef .tc main_v17)) = _
  rw [W8_v16, W8_v10, W8_v17]
  rfl
theorem W9_v13 (c : Dev nD) : W9 m ρ c (Proc.devRef .tc main_v13) = Term.w3 (argV1 m c) (argV2 m c) :=
  (W9_of_ne m ρ c main_v13 (by decide)).trans (W8_v13 m ρ c)
theorem W9_v14 (c : Dev nD) : W9 m ρ c (Proc.devRef .tc main_v14) = extractStridedSlice S2048 ![33562624] (Term.long (argV1 m c) (argV2 m c)) Facts₀.slices_S33564672_S2048_33562624 :=
  (W9_of_ne m ρ c main_v14 (by decide)).trans (W8_v14 m ρ c)

/-- Region 3's entry: the third bias reshaped to one row. -/
theorem W10_v19 (c : Dev nD) : W10 m ρ c (Proc.devRef .tc main_v19) = Term.b3 (argV1 m c) (argV2 m c) := by
  show StableHlo.after hostOps3 (W9 m ρ c) (Proc.devRef .tc main_v19) = _
  after_results
  rw [W9_v14]
  rfl
theorem W10_v18 (c : Dev nD) : W10 m ρ c (Proc.devRef .tc main_v18) = Term.h2 (argX m c) (argV1 m c) (argV2 m c) := by
  show StableHlo.after hostOps3 (W9 m ρ c) (Proc.devRef .tc main_v18) = _
  after_results
  exact W9_v18 m ρ c
theorem W10_v13 (c : Dev nD) : W10 m ρ c (Proc.devRef .tc main_v13) = Term.w3 (argV1 m c) (argV2 m c) := by
  show StableHlo.after hostOps3 (W9 m ρ c) (Proc.devRef .tc main_v13) = _
  after_results
  exact W9_v13 m ρ c

/-- The result buffer at the last boundary is the kernel program's term of the three arguments. -/
theorem W11_result (c : Dev nD) : W11 m ρ c (Proc.devRef .tc main_v20) = Term.y (argX m c) (argV1 m c) (argV2 m c) := by
  refine (W11_arr m ρ c 3).trans ?_
  refine (Region3.final (V10 m ρ) c).trans ?_
  show dense (W10 m ρ c (Proc.devRef .tc main_v18)) (W10 m ρ c (Proc.devRef .tc main_v13)) (W10 m ρ c (Proc.devRef .tc main_v19)) = _
  rw [W10_v18, W10_v13, W10_v19]
  rfl

end Cert.KernelIdeal.Chain

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Bridge.lean ====
/-
  The kernel program's term is the specification.

  The padded factors agree with V1 and V2 inside the operands' extents and are zero outside, so an entry of the
  padded product inside the 5794 × 5794 corner is the sum over the 2897 true columns plus 47 terms 0 · 0: the
  corner is V1 · V2. The long vector is that corner read row by row (entry n at row n / 5794, column n % 5794), and
  each parameter is a stretch of it reshaped: the slice's offset plus the row-major position inside the reshaped
  matrix is the position in the long vector the specification's `weightAt` / `biasAt` read.
-/
import proofs.«126509_j24953759990119_1_alg».proof.Proof.KernelTerm
import proofs.«126509_j24953759990119_1_alg».proof.Proof.Spec
import proofs.«126509_j24953759990119_1_alg».proof.Proof.LibSums
import Idealize.ShloMosaic.Lib.Pipeline.Value
import Idealize.ShloMosaic.Lib.KernelVsHost
import Idealize.ShloMosaic.Lib.ValueIdx
import Idealize.ShloMosaic.PureOps.Ideal.Laws

noncomputable section

namespace Cert.KernelIdeal.Term

open Idealize.ShloMosaic Idealize.ShloMosaic.ValueIdx Cert.KernelIdeal Cert.KernelIdeal.Facts₀ Cert.LowRankMlp

/-! ## The padded product is the product -/

/-- The padding value, the integer zero converted, is the real number zero. -/
theorem zero_apply (i : S_.Idx) : zero i = 0 := by
  show (((((0#32 : BitVec 32)).toInt : ℝ)) : EReal) = 0
  simp

/-- A sum over `a + b` indices whose last `b` terms vanish is the sum over the first `a`. -/
theorem sum_drop_tail {a b : ℕ} (f : Fin (a + b) → EReal) (h : ∀ k : Fin b, f (Fin.natAdd a k) = 0) :
    ∑ k, f k = ∑ k : Fin a, f (Fin.castAdd b k) := by
  rw [Cert.Sums.sum_split a b f, Finset.sum_eq_zero (fun k _ => h k), add_zero]

/-- Inside the operand the first padded matrix is V1. -/
theorem p1_inside (V1 : FVec Ideal S5794x2897 .f32) (p : Fin 5794) (k : Fin 2897) (hp : p.val < 6144) (hk : k.val < 2944) :
    p1 V1 (ix2 ⟨p.val, hp⟩ ⟨k.val, hk⟩) = V1 (ix2 p k) := by
  unfold p1
  exact pad_apply_of_inside ![0, 0] ![350, 47] ![0, 0] V1 zero pads_S5794x2897_S6144x2944_03500_0470 h_S_ _ (ix2 p k)
    (fun a => match a with
      | ⟨0, _⟩ => by show p.val = 0 + p.val * (0 + 1); omega
      | ⟨1, _⟩ => by show k.val = 0 + k.val * (0 + 1); omega)

/-- Inside the operand the second padded matrix is V2. -/
theorem p2_inside (V2 : FVec Ideal S2897x5794 .f32) (k : Fin 2897) (q : Fin 5794) (hk : k.val < 2944) (hq : q.val < 6144) :
    p2 V2 (ix2 ⟨k.val, hk⟩ ⟨q.val, hq⟩) = V2 (ix2 k q) := by
  unfold p2
  exact pad_apply_of_inside ![0, 0] ![47, 350] ![0, 0] V2 zero pads_S2897x5794_S2944x6144_0470_03500 h_S_ _ (ix2 k q)
    (fun a => match a with
      | ⟨0, _⟩ => by show k.val = 0 + k.val * (0 + 1); omega
      | ⟨1, _⟩ => by show q.val = 0 + q.val * (0 + 1); omega)

/-- In the columns past the operand's 2897 the first padded matrix is zero. -/
theorem p1_outside (V1 : FVec Ideal S5794x2897 .f32) (p : Fin 6144) (k : Fin 2944) (hk : 2897 ≤ k.val) :
    p1 V1 (ix2 p k) = 0 := by
  unfold p1
  rw [pad_apply_of_not_inside ![0, 0] ![350, 47] ![0, 0] V1 zero pads_S5794x2897_S6144x2944_03500_0470 h_S_ (ix2 p k) (⟨1, by decide⟩ : Fin 2)
    (fun h => by
      have h3 : (k.val - 0) / (0 + 1) < 2897 := h.2.2
      omega)]
  exact zero_apply _

/-- In the rows past the operand's 2897 the second padded matrix is zero. -/
theorem p2_outside (V2 : FVec Ideal S2897x5794 .f32) (k : Fin 2944) (q : Fin 6144) (hk : 2897 ≤ k.val) :
    p2 V2 (ix2 k q) = 0 := by
  unfold p2
  rw [pad_apply_of_not_inside ![0, 0] ![47, 350] ![0, 0] V2 zero pads_S2897x5794_S2944x6144_0470_03500 h_S_ (ix2 k q) (⟨0, by decide⟩ : Fin 2)
    (fun h => by
      have h3 : (k.val - 0) / (0 + 1) < 2897 := h.2.2
      omega)]
  exact zero_apply _

/-- The corner of the padded product is the product of V1 and V2: the 47 padded terms of each sum are 0 · 0. -/
theorem sq_eq (V1 : FVec Ideal S5794x2897 .f32) (V2 : FVec Ideal S2897x5794 .f32) : sq V1 V2 = prod V1 V2 := by
  funext i
  obtain ⟨p, q, rfl⟩ : ∃ (p q : Fin 5794), i = ix2 p q := ⟨i 0, i 1, eq_ix2 i⟩
  have hp : p.val < 6144 := by have := p.isLt; omega
  have hq : q.val < 6144 := by have := q.isLt; omega
  unfold sq
  rw [extractStridedSlice_apply ![0, 0] (big V1 V2) slices_S6144x6144_S5794x5794_0_0 (ix2 p q) (ix2 ⟨p.val, hp⟩ ⟨q.val, hq⟩)
    (fun a => match a with
      | ⟨0, _⟩ => by show p.val = 0 + p.val; omega
      | ⟨1, _⟩ => by show q.val = 0 + q.val; omega)]
  unfold big
  rw [prod_apply, prod_apply]
  show (∑ k : Fin (2897 + 47), p1 V1 (ix2 ⟨p.val, hp⟩ k) * p2 V2 (ix2 k ⟨q.val, hq⟩)) = _
  rw [sum_drop_tail _ (fun k => by
    rw [p1_outside V1 _ _ (by show 2897 ≤ 2897 + k.val; omega), p2_outside V2 _ _ (by show 2897 ≤ 2897 + k.val; omega), zero_mul])]
  refine Finset.sum_congr rfl fun k _ => ?_
  have hk : k.val < 2944 := by have := k.isLt; omega
  exact congrArg₂ (· * ·) (p1_inside V1 p k hp hk) (p2_inside V2 k q hk hq)

/-! ## The long vector and the parameters cut out of it -/

/-- Entry n of the long vector is entry n of the corner read row by row. -/
theorem long_apply (V1 : FVec Ideal S5794x2897 .f32) (V2 : FVec Ideal S2897x5794 .f32) (n : Fin 33564672)
    (h : n.val < 33570436) : long V1 V2 (ix1 n) = flatAt (sq V1 V2) n.val h := by
  unfold long
  rw [extractStridedSlice_apply ![0] (shapeCast S33570436 (sq V1 V2) shapeCasts_S5794x5794_S33570436)
    slices_S33570436_S33564672_0 (ix1 n) (ix1 ⟨n.val, h⟩)
    (fun a => match a with | ⟨0, _⟩ => by show n.val = 0 + n.val; omega)]
  exact shapeCast_apply (sq V1 V2) shapeCasts_S5794x5794_S33570436 (ix1 ⟨n.val, h⟩)
    (ix2 ⟨n.val / 5794, by omega⟩ ⟨n.val % 5794, by omega⟩)
    (by rewrite [Shape.rowMajor_val_two, Shape.rowMajor_val_one]; show n.val / 5794 * 5794 + n.val % 5794 = n.val; omega)

/-- The long vector at position off + a · c + b is entry (a, b) of the weight matrix stored from off. -/
theorem long_weight (V1 : FVec Ideal S5794x2897 .f32) (V2 : FVec Ideal S2897x5794 .f32) (off r c : ℕ)
    (h : off + r * c ≤ 33570436) (a : Fin r) (b : Fin c) (hn : off + a.val * c + b.val < 33564672) :
    long V1 V2 (ix1 ⟨off + a.val * c + b.val, hn⟩) = weightAt (prod V1 V2) off r c h (ix2 a b) := by
  rw [long_apply V1 V2 _ (offset_lt h a.isLt b.isLt), sq_eq]
  rfl

/-- The long vector at position off + b is entry b of the bias stored from off. -/
theorem long_bias (V1 : FVec Ideal S5794x2897 .f32) (V2 : FVec Ideal S2897x5794 .f32) (off n : ℕ)
    (h : off + n ≤ 33570436) (a : Fin 1) (b : Fin n) (hn : off + b.val < 33564672) :
    long V1 V2 (ix1 ⟨off + b.val, hn⟩) = biasAt (prod V1 V2) off n h (ix2 a b) := by
  rw [long_apply V1 V2 _ (by have := b.isLt; show off + b.val < 33570436; omega), sq_eq]
  rfl

theorem w1_eq (V1 : FVec Ideal S5794x2897 .f32) (V2 : FVec Ideal S2897x5794 .f32) (h : 0 + 4096 * 2048 ≤ 33570436) :
    w1 V1 V2 = weightAt (prod V1 V2) 0 4096 2048 h := by
  funext i
  obtain ⟨a, b, rfl⟩ : ∃ (a : Fin 4096) (b : Fin 2048), i = ix2 a b := ⟨i 0, i 1, eq_ix2 i⟩
  have ha := a.isLt
  have hb := b.isLt
  unfold w1
  rw [shapeCast_apply (extractStridedSlice S8388608 ![0] (long V1 V2) slices_S33564672_S8388608_0)
    shapeCasts_S8388608_S4096x2048 (ix2 a b) (ix1 ⟨a.val * 2048 + b.val, by omega⟩)
    (by rewrite [Shape.rowMajor_val_one, Shape.rowMajor_val_two]; rfl)]
  rw [extractStridedSlice_apply ![0] (long V1 V2) slices_S33564672_S8388608_0 _
    (ix1 ⟨0 + a.val * 2048 + b.val, by omega⟩)
    (fun c => match c with | ⟨0, _⟩ => by show 0 + a.val * 2048 + b.val = 0 + (a.val * 2048 + b.val); omega)]
  exact long_weight V1 V2 0 4096 2048 h a b _

theorem w2_eq (V1 : FVec Ideal S5794x2897 .f32) (V2 : FVec Ideal S2897x5794 .f32) (h : 8392704 + 4096 * 4096 ≤ 33570436) :
    w2 V1 V2 = weightAt (prod V1 V2) 8392704 4096 4096 h := by
  funext i
  obtain ⟨a, b, rfl⟩ : ∃ (a : Fin 4096) (b : Fin 4096), i = ix2 a b := ⟨i 0, i 1, eq_ix2 i⟩
  have ha := a.isLt
  have hb := b.isLt
  unfold w2
  rw [shapeCast_apply (extractStridedSlice S16777216 ![8392704] (long V1 V2) slices_S33564672_S16777216_8392704)
    shapeCasts_S16777216_S4096x4096 (ix2 a b) (ix1 ⟨a.val * 4096 + b.val, by omega⟩)
    (by rewrite [Shape.rowMajor_val_one, Shape.rowMajor_val_two]; rfl)]
  rw [extractStridedSlice_apply ![8392704] (long V1 V2) slices_S33564672_S16777216_8392704 _
    (ix1 ⟨8392704 + a.val * 4096 + b.val, by omega⟩)
    (fun c => match c with | ⟨0, _⟩ => by show 8392704 + a.val * 4096 + b.val = 8392704 + (a.val * 4096 + b.val); omega)]
  exact long_weight V1 V2 8392704 4096 4096 h a b _

theorem w3_eq (V1 : FVec Ideal S5794x2897 .f32) (V2 : FVec Ideal S2897x5794 .f32) (h : 25174016 + 2048 * 4096 ≤ 33570436) :
    w3 V1 V2 = weightAt (prod V1 V2) 25174016 2048 4096 h := by
  funext i
  obtain ⟨a, b, rfl⟩ : ∃ (a : Fin 2048) (b : Fin 4096), i = ix2 a b := ⟨i 0, i 1, eq_ix2 i⟩
  have ha := a.isLt
  have hb := b.isLt
  unfold w3
  rw [shapeCast_apply (extractStridedSlice S8388608 ![25174016] (long V1 V2) slices_S33564672_S8388608_25174016)
    shapeCasts_S8388608_S2048x4096 (ix2 a b) (ix1 ⟨a.val * 4096 + b.val, by omega⟩)
    (by rewrite [Shape.rowMajor_val_one, Shape.rowMajor_val_two]; rfl)]
  rw [extractStridedSlice_apply ![25174016] (long V1 V2) slices_S33564672_S8388608_25174016 _
    (ix1 ⟨25174016 + a.val * 4096 + b.val, by omega⟩)
    (fun c => match c with | ⟨0, _⟩ => by show 25174016 + a.val * 4096 + b.val = 25174016 + (a.val * 4096 + b.val); omega)]
  exact long_weight V1 V2 25174016 2048 4096 h a b _

theorem b1_eq (V1 : FVec Ideal S5794x2897 .f32) (V2 : FVec Ideal S2897x5794 .f32) (h : 8388608 + 4096 ≤ 33570436) :
    b1 V1 V2 = biasAt (prod V1 V2) 8388608 4096 h := by
  funext i
  obtain ⟨a, b, rfl⟩ : ∃ (a : Fin 1) (b : Fin 4096), i = ix2 a b := ⟨i 0, i 1, eq_ix2 i⟩
  have ha := a.isLt
  have hb := b.isLt
  unfold b1
  rw [shapeCast_apply (extractStridedSlice S4096 ![8388608] (long V1 V2) slices_S33564672_S4096_8388608)
    shapeCasts_S4096_S1x4096 (ix2 a b) (ix1 b)
    (by rewrite [Shape.rowMajor_val_one, Shape.rowMajor_val_two]; show b.val = a.val * 4096 + b.val; omega)]
  rw [extractStridedSlice_apply ![8388608] (long V1 V2) slices_S33564672_S4096_8388608 _
    (ix1 ⟨8388608 + b.val, by omega⟩)
    (fun c => match c with | ⟨0, _⟩ => rfl)]
  exact long_bias V1 V2 8388608 4096 h a b _

theorem b2_eq (V1 : FVec Ideal S5794x2897 .f32) (V2 : FVec Ideal S2897x5794 .f32) (h : 25169920 + 4096 ≤ 33570436) :
    b2 V1 V2 = biasAt (prod V1 V2) 25169920 4096 h := by
  funext i
  obtain ⟨a, b, rfl⟩ : ∃ (a : Fin 1) (b : Fin 4096), i = ix2 a b := ⟨i 0, i 1, eq_ix2 i⟩
  have ha := a.isLt
  have hb := b.isLt
  unfold b2
  rw [shapeCast_apply (extractStridedSlice S4096 ![25169920] (long V1 V2) slices_S33564672_S4096_25169920)
    shapeCasts_S4096_S1x4096 (ix2 a b) (ix1 b)
    (by rewrite [Shape.rowMajor_val_one, Shape.rowMajor_val_two]; show b.val = a.val * 4096 + b.val; omega)]
  rw [extractStridedSlice_apply ![25169920] (long V1 V2) slices_S33564672_S4096_25169920 _
    (ix1 ⟨25169920 + b.val, by omega⟩)
    (fun c => match c with | ⟨0, _⟩ => rfl)]
  exact long_bias V1 V2 25169920 4096 h a b _

theorem b3_eq (V1 : FVec Ideal S5794x2897 .f32) (V2 : FVec Ideal S2897x5794 .f32) (h : 33562624 + 2048 ≤ 33570436) :
    b3 V1 V2 = biasAt (prod V1 V2) 33562624 2048 h := by
  funext i
  obtain ⟨a, b, rfl⟩ : ∃ (a : Fin 1) (b : Fin 2048), i = ix2 a b := ⟨i 0, i 1, eq_ix2 i⟩
  have ha := a.isLt
  have hb := b.isLt
  unfold b3
  rw [shapeCast_apply (extractStridedSlice S2048 ![33562624] (long V1 V2) slices_S33564672_S2048_33562624)
    shapeCasts_S2048_S1x2048 (ix2 a b) (ix1 b)
    (by rewrite [Shape.rowMajor_val_one, Shape.rowMajor_val_two]; show b.val = a.val * 2048 + b.val; omega)]
  rw [extractStridedSlice_apply ![33562624] (long V1 V2) slices_S33564672_S2048_33562624 _
    (ix1 ⟨33562624 + b.val, by omega⟩)
    (fun c => match c with | ⟨0, _⟩ => rfl)]
  exact long_bias V1 V2 33562624 2048 h a b _

/-! ## The kernel program's term is the specification -/

theorem y_eq (x : FVec Ideal S4096x2048 .f32) (V1 : FVec Ideal S5794x2897 .f32) (V2 : FVec Ideal S2897x5794 .f32) :
    y x V1 V2 = out x V1 V2 := by
  unfold y h2 h1 out mlp
  rw [w1_eq V1 V2 (by norm_num), b1_eq V1 V2 (by norm_num), w2_eq V1 V2 (by norm_num), b2_eq V1 V2 (by norm_num),
    w3_eq V1 V2 (by norm_num), b3_eq V1 V2 (by norm_num)]

end Cert.KernelIdeal.Term

end
-- ==== Proof.Reference.lean ====
/- The reference program's result is the specification. -/
import proofs.«126509_j24953759990119_1_alg».proof.Proof.Gen.ReferenceIdeal.Run
import proofs.«126509_j24953759990119_1_alg».proof.Proof.Gen.ReferenceIdeal.Read
import proofs.«126509_j24953759990119_1_alg».proof.Proof.Spec
import proofs.«126509_j24953759990119_1_alg».proof.Proof.LibPlainProduct
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Cert.LowRankMlp
open Idealize.ShloMosaic Idealize.ShloMosaic.ValueIdx

/-- The square matrix the reference multiplies out is the product of the specification. -/
theorem v0_eq (x1 : (⟨S5794x2897, .f32⟩ : BufTy).Contents (Elt Ideal)) (x2 : (⟨S2897x5794, .f32⟩ : BufTy).Contents (Elt Ideal)) :
    val_main_v0 (F := Ideal) x1 x2 = prod x1 x2 := by
  funext i
  obtain ⟨p, q, rfl⟩ : ∃ (p : Fin 5794) (q : Fin 5794), i = ix2 p q := ⟨i 0, i 1, eq_ix2 i⟩
  rw [val_main_v0_apply, prod_apply]
  refine Finset.sum_congr rfl fun k _ => ?_
  have el : lidx_main_v0 (ix2 p q) k = ix2 p k := funext fun a => match a with
    | ⟨0, _⟩ => rfl
    | ⟨1, _⟩ => rfl
  have er : ridx_main_v0 (ix2 p q) k = ix2 k q := funext fun a => match a with
    | ⟨0, _⟩ => rfl
    | ⟨1, _⟩ => rfl
  rw [el, er]

/-- Two readings of the long vector at the same position agree. -/
theorem flatAt_congr (P : Mat 5794 5794) {n m : ℕ} (hn : n < 33570436) (hm : m < 33570436) (e : n = m) :
    flatAt P n hn = flatAt P m hm := by
  subst e; rfl

/-- The flattened matrix at position n is entry (n / 5794, n % 5794) of the product. -/
theorem v1_at (x1 : (⟨S5794x2897, .f32⟩ : BufTy).Contents (Elt Ideal)) (x2 : (⟨S2897x5794, .f32⟩ : BufTy).Contents (Elt Ideal)) (i : S33570436.Idx) :
    val_main_v1 (F := Ideal) x1 x2 i = flatAt (prod x1 x2) (i 0).val (i 0).isLt := by
  rw [val_main_v1_apply, v0_eq]
  unfold flatAt
  refine congrArg (prod x1 x2) (funext fun a => ?_)
  match a with
  | ⟨0, _⟩ => rfl
  | ⟨1, _⟩ => rfl

/-- The first layer's weights, transposed: entry (d, o) is W1 (o, d). -/
theorem v11_at (x1 : (⟨S5794x2897, .f32⟩ : BufTy).Contents (Elt Ideal)) (x2 : (⟨S2897x5794, .f32⟩ : BufTy).Contents (Elt Ideal)) (d : Fin 2048) (o : Fin 4096) :
    val_main_v11 (F := Ideal) x1 x2 (ix2 d o) = weightAt (prod x1 x2) 0 4096 2048 (by norm_num) (ix2 o d) := by
  rw [val_main_v11_apply, val_main_v3_apply, val_main_v2_apply, v1_at]
  unfold weightAt
  apply flatAt_congr
  show o.val * 2048 + d.val = 0 + o.val * 2048 + d.val
  omega

/-- The first layer's bias, as a row. -/
theorem v13_at (x1 : (⟨S5794x2897, .f32⟩ : BufTy).Contents (Elt Ideal)) (x2 : (⟨S2897x5794, .f32⟩ : BufTy).Contents (Elt Ideal)) (z : Fin 1) (q : Fin 4096) :
    val_main_v13 (F := Ideal) x1 x2 (ix2 z q) = biasAt (prod x1 x2) 8388608 4096 (by norm_num) (ix2 0 q) := by
  rw [val_main_v13_apply, val_main_v4_apply, v1_at]
  unfold biasAt
  apply flatAt_congr
  show 8388608 + q.val = 8388608 + q.val
  rfl

/-- The second layer's weights, transposed. -/
theorem v17_at (x1 : (⟨S5794x2897, .f32⟩ : BufTy).Contents (Elt Ideal)) (x2 : (⟨S2897x5794, .f32⟩ : BufTy).Contents (Elt Ideal)) (d : Fin 4096) (o : Fin 4096) :
    val_main_v17 (F := Ideal) x1 x2 (ix2 d o) = weightAt (prod x1 x2) 8392704 4096 4096 (by norm_num) (ix2 o d) := by
  rw [val_main_v17_apply, val_main_v6_apply, val_main_v5_apply, v1_at]
  unfold weightAt
  apply flatAt_congr
  show 8392704 + (o.val * 4096 + d.val) = 8392704 + o.val * 4096 + d.val
  omega

/-- The second layer's bias, as a row. -/
theorem v19_at (x1 : (⟨S5794x2897, .f32⟩ : BufTy).Contents (Elt Ideal)) (x2 : (⟨S2897x5794, .f32⟩ : BufTy).Contents (Elt Ideal)) (z : Fin 1) (q : Fin 4096) :
    val_main_v19 (F := Ideal) x1 x2 (ix2 z q) = biasAt (prod x1 x2) 25169920 4096 (by norm_num) (ix2 0 q) := by
  rw [val_main_v19_apply, val_main_v7_apply, v1_at]
  unfold biasAt
  apply flatAt_congr
  show 25169920 + q.val = 25169920 + q.val
  rfl

/-- The third layer's weights, transposed. -/
theorem v23_at (x1 : (⟨S5794x2897, .f32⟩ : BufTy).Contents (Elt Ideal)) (x2 : (⟨S2897x5794, .f32⟩ : BufTy).Contents (Elt Ideal)) (d : Fin 4096) (o : Fin 2048) :
    val_main_v23 (F := Ideal) x1 x2 (ix2 d o) = weightAt (prod x1 x2) 25174016 2048 4096 (by norm_num) (ix2 o d) := by
  rw [val_main_v23_apply, val_main_v9_apply, val_main_v8_apply, v1_at]
  unfold weightAt
  apply flatAt_congr
  show 25174016 + (o.val * 4096 + d.val) = 25174016 + o.val * 4096 + d.val
  omega

/-- The third layer's bias, as a row. -/
theorem v25_at (x1 : (⟨S5794x2897, .f32⟩ : BufTy).Contents (Elt Ideal)) (x2 : (⟨S2897x5794, .f32⟩ : BufTy).Contents (Elt Ideal)) (z : Fin 1) (q : Fin 2048) :
    val_main_v25 (F := Ideal) x1 x2 (ix2 z q) = biasAt (prod x1 x2) 33562624 2048 (by norm_num) (ix2 0 q) := by
  rw [val_main_v25_apply, val_main_v10_apply, v1_at]
  unfold biasAt
  apply flatAt_congr
  show 33562624 + q.val = 33562624 + q.val
  rfl

/-- The first layer: x · W1ᵀ + b1, then the maximum with zero. -/
theorem v16_eq (x0 : (⟨S4096x2048, .f32⟩ : BufTy).Contents (Elt Ideal)) (x1 : (⟨S5794x2897, .f32⟩ : BufTy).Contents (Elt Ideal)) (x2 : (⟨S2897x5794, .f32⟩ : BufTy).Contents (Elt Ideal)) :
    val_main_v16 (F := Ideal) x0 x1 x2
      = denseRelu x0 (weightAt (prod x1 x2) 0 4096 2048 (by norm_num)) (biasAt (prod x1 x2) 8388608 4096 (by norm_num)) := by
  funext i
  obtain ⟨p, q, rfl⟩ : ∃ (p : Fin 4096) (q : Fin 4096), i = ix2 p q := ⟨i 0, i 1, eq_ix2 i⟩
  rw [denseRelu_apply, val_main_v16_apply, val_main_v15_apply, val_main_v12_apply, val_main_v14_apply,
    val_main_call0_v0_apply, val_main_call0_cst_apply]
  have eb : idx_main_v14 (ix2 p q) = ix2 (0 : Fin 1) q := funext fun a => match a with
    | ⟨0, _⟩ => rfl
    | ⟨1, _⟩ => rfl
  rw [eb, v13_at]
  show max ((∑ k : Fin 2048, x0 (lidx_main_v12 (ix2 p q) k) * val_main_v11 (F := Ideal) x1 x2 (ridx_main_v12 (ix2 p q) k)) + _)
      (Ideal.ofBits .f32 0x00000000#32) = _
  rw [Ideal.ofBits_zero_f32]
  refine congrArg (fun t => max (t + _) 0) (Finset.sum_congr rfl fun k _ => ?_)
  have el : lidx_main_v12 (ix2 p q) k = ix2 p k := funext fun a => match a with
    | ⟨0, _⟩ => rfl
    | ⟨1, _⟩ => rfl
  have er : ridx_main_v12 (ix2 p q) k = ix2 k q := funext fun a => match a with
    | ⟨0, _⟩ => rfl
    | ⟨1, _⟩ => rfl
  rw [el, er, v11_at]

/-- The second layer: h · W2ᵀ + b2, then the maximum with zero. -/
theorem v22_eq (x0 : (⟨S4096x2048, .f32⟩ : BufTy).Contents (Elt Ideal)) (x1 : (⟨S5794x2897, .f32⟩ : BufTy).Contents (Elt Ideal)) (x2 : (⟨S2897x5794, .f32⟩ : BufTy).Contents (Elt Ideal)) :
    val_main_v22 (F := Ideal) x0 x1 x2
      = denseRelu (val_main_v16 (F := Ideal) x0 x1 x2) (weightAt (prod x1 x2) 8392704 4096 4096 (by norm_num))
          (biasAt (prod x1 x2) 25169920 4096 (by norm_num)) := by
  funext i
  obtain ⟨p, q, rfl⟩ : ∃ (p : Fin 4096) (q : Fin 4096), i = ix2 p q := ⟨i 0, i 1, eq_ix2 i⟩
  rw [denseRelu_apply, val_main_v22_apply, val_main_v21_apply, val_main_v18_apply, val_main_v20_apply,
    val_main_call1_v0_apply, val_main_call1_cst_apply]
  have eb : idx_main_v20 (ix2 p q) = ix2 (0 : Fin 1) q := funext fun a => match a with
    | ⟨0, _⟩ => rfl
    | ⟨1, _⟩ => rfl
  rw [eb, v19_at]
  show max ((∑ k : Fin 4096, val_main_v16 (F := Ideal) x0 x1 x2 (lidx_main_v18 (ix2 p q) k) * val_main_v17 (F := Ideal) x1 x2 (ridx_main_v18 (ix2 p q) k)) + _)
      (Ideal.ofBits .f32 0x00000000#32) = _
  rw [Ideal.ofBits_zero_f32]
  refine congrArg (fun t => max (t + _) 0) (Finset.sum_congr rfl fun k _ => ?_)
  have el : lidx_main_v18 (ix2 p q) k = ix2 p k := funext fun a => match a with
    | ⟨0, _⟩ => rfl
    | ⟨1, _⟩ => rfl
  have er : ridx_main_v18 (ix2 p q) k = ix2 k q := funext fun a => match a with
    | ⟨0, _⟩ => rfl
    | ⟨1, _⟩ => rfl
  rw [el, er, v17_at]

/-- The third layer: h · W3ᵀ + b3. -/
theorem v27_eq (x0 : (⟨S4096x2048, .f32⟩ : BufTy).Contents (Elt Ideal)) (x1 : (⟨S5794x2897, .f32⟩ : BufTy).Contents (Elt Ideal)) (x2 : (⟨S2897x5794, .f32⟩ : BufTy).Contents (Elt Ideal)) :
    val_main_v27 (F := Ideal) x0 x1 x2
      = dense (val_main_v22 (F := Ideal) x0 x1 x2) (weightAt (prod x1 x2) 25174016 2048 4096 (by norm_num))
          (biasAt (prod x1 x2) 33562624 2048 (by norm_num)) := by
  funext i
  obtain ⟨p, q, rfl⟩ : ∃ (p : Fin 4096) (q : Fin 2048), i = ix2 p q := ⟨i 0, i 1, eq_ix2 i⟩
  rw [dense_apply, val_main_v27_apply, val_main_v24_apply, val_main_v26_apply]
  have eb : idx_main_v26 (ix2 p q) = ix2 (0 : Fin 1) q := funext fun a => match a with
    | ⟨0, _⟩ => rfl
    | ⟨1, _⟩ => rfl
  rw [eb, v25_at]
  rw [Ideal.addf_def]
  refine congrArg (fun t => t + _) (Finset.sum_congr rfl fun k _ => ?_)
  have el : lidx_main_v24 (ix2 p q) k = ix2 p k := funext fun a => match a with
    | ⟨0, _⟩ => rfl
    | ⟨1, _⟩ => rfl
  have er : ridx_main_v24 (ix2 p q) k = ix2 k q := funext fun a => match a with
    | ⟨0, _⟩ => rfl
    | ⟨1, _⟩ => rfl
  rw [el, er, v23_at]

theorem ref_eq (x0 : (⟨S4096x2048, .f32⟩ : BufTy).Contents (Elt Ideal)) (x1 : (⟨S5794x2897, .f32⟩ : BufTy).Contents (Elt Ideal))
    (x2 : (⟨S2897x5794, .f32⟩ : BufTy).Contents (Elt Ideal)) :
    val_main_v27 (F := Ideal) x0 x1 x2 = out x0 x1 x2 := by
  rw [v27_eq, v22_eq, v16_eq]
  rfl

end Cert.ReferenceIdeal.RefValue

end
-- ==== Proof.lean ====
/-
  The certificate of the low-rank perceptron kernel against its reference.

  Both programs compute, over the extended reals, the three-layer perceptron whose weights and biases are
  consecutive stretches of the row-major reading of P = V1 · V2 (Proof/Spec.lean: `Cert.LowRankMlp.out`).
  The kernel program pads V1 and V2 with zeros to block multiples, multiplies the padded factors tile by tile
  (the zero columns and rows add 0 · 0 to each entry), cuts the product's corner back out, and runs each layer as
  a tiled product of the activations with the transposed weights plus the bias (and the maximum with zero). The
  reference multiplies V1 · V2 directly and applies the layers as whole-array operations. A change of float format
  is the identity on the extended reals, a tiled sum is the same finite sum, and nothing uses a law that fails at
  an infinity: the precondition is never opened.

  The frames of the two kernel programs are the generated ones; the reference's is its generated run. The kernel
  program's run with its result named is Proof/KernelRun.lean, read back through @main in Proof/KernelChain.lean
  over the regions' whole-array values (Proof/Region0 … Region3.lean) to the term of Proof/KernelTerm.lean; that
  term is the specification (Proof/Bridge.lean), and so is the reference's (Proof/Reference.lean).
-/
import proofs.«126509_j24953759990119_1_alg».proof.Defs
import proofs.«126509_j24953759990119_1_alg».proof.Proof.Gen.Kernel
import proofs.«126509_j24953759990119_1_alg».proof.Proof.Gen.Kernel.Skeleton
import proofs.«126509_j24953759990119_1_alg».proof.Proof.Gen.Kernel.Launch
import proofs.«126509_j24953759990119_1_alg».proof.Proof.Gen.Kernel.Points
import proofs.«126509_j24953759990119_1_alg».proof.Proof.Gen.Kernel.Frame
import proofs.«126509_j24953759990119_1_alg».proof.Proof.Gen.KernelIdeal
import proofs.«126509_j24953759990119_1_alg».proof.Proof.Gen.KernelIdeal.Skeleton
import proofs.«126509_j24953759990119_1_alg».proof.Proof.Gen.KernelIdeal.Launch
import proofs.«126509_j24953759990119_1_alg».proof.Proof.Gen.KernelIdeal.Points
import proofs.«126509_j24953759990119_1_alg».proof.Proof.Gen.KernelIdeal.Frame
import proofs.«126509_j24953759990119_1_alg».proof.Proof.Gen.ReferenceIdeal
import proofs.«126509_j24953759990119_1_alg».proof.Proof.Gen.ReferenceIdeal.Run
import proofs.«126509_j24953759990119_1_alg».proof.Proof.Gen.ReferenceIdeal.Read
import proofs.«126509_j24953759990119_1_alg».proof.Proof.Gen.Pre_finite_inputs
import proofs.«126509_j24953759990119_1_alg».proof.Proof.KernelRun
import proofs.«126509_j24953759990119_1_alg».proof.Proof.KernelChain
import proofs.«126509_j24953759990119_1_alg».proof.Proof.Bridge
import proofs.«126509_j24953759990119_1_alg».proof.Proof.Reference
import Idealize.ShloMosaic.Adequacy
import Idealize.ShloMosaic.Init

noncomputable section

namespace Cert.Proof

open Idealize.ShloMosaic Idealize.SL.Sem

/-- The kernel program's frame is the generated one. -/
theorem frame_kernel : Cert.frame_Kernel := fun m ρ _ => Cert.Kernel.Gen.frame m ρ

/-- So is its idealization's. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the specification's value of the arguments in their result buffers. -/
theorem algebraic : Cert.algebraic_KernelIdeal_ReferenceIdeal := by
  intro m ρ m' ρ' _ hagree
  refine ⟨fun c => Cert.LowRankMlp.out (Cert.KernelIdeal.Chain.argX m c) (Cert.KernelIdeal.Chain.argV1 m c) (Cert.KernelIdeal.Chain.argV2 m c), ?_, ?_⟩
  · refine (θ_run Cert.KernelIdeal.defs _ _).mono (fun r h c => ⟨(h c).1.trans ?_, (h c).2⟩) (Cert.KernelIdeal.Run.run (F := Ideal) m ρ)
    exact (Cert.KernelIdeal.Chain.W11_result m ρ c).trans (Cert.KernelIdeal.Term.y_eq _ _ _)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v27_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
